-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1 : Shape := ⟨2, ![65536, 1]⟩
abbrev S65536x32 : Shape := ⟨2, ![65536, 32]⟩
abbrev S1x256 : Shape := ⟨2, ![1, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x32 : Shape := ⟨2, ![1, 32]⟩
abbrev S32x32 : Shape := ⟨2, ![32, 32]⟩
abbrev S_ : Shape := ⟨0, ![]⟩

class Facts : Prop where
  bcast_S_S65536x1 : S_.BroadcastsInDim S65536x1 (![] : Fin 0 → Fin S65536x1.rank)
  reducesTo_S65536x1_S_d0_1 : S65536x1.ReducesTo [0, 1] S_
  h_S_ : 0 < S_.numel
  bcast_S_S65536x32 : S_.BroadcastsInDim S65536x32 (![] : Fin 0 → Fin S65536x32.rank)
  reducesTo_S65536x32_S_d0_1 : S65536x32.ReducesTo [0, 1] S_
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_

variable [Facts]

def fn_part3 {F : FTy → Type} [FloatOps F] (main_arg11 : FVec F S1x32 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  main_v58

def fn_part2 {F : FTy → Type} [FloatOps F] (main_arg7 : FVec F S32 .f32) (main_arg8 : FVec F S1x32 .f32) (main_arg9 : FVec F S1x32 .f32) (main_arg10 : FVec F S32x32 .f32) (main_arg11 : FVec F S1x32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1x32 .f32 := Host.absf main_arg9
  let main_cst_16 : FVec F S_ .f32 := constant S_ .f32 0x7F800000#32
  let main_v45 : FVec F S1x32 .f32 := broadcastInDim S1x32 ![] bcast_S_S1x32 main_cst_16
  let main_v46 : IVec S1x32 1 := cmpf .olt main_v44 main_v45
  let main_c_17 : IVec S_ 1 := constantI S_ 1 1#1
  let main_v47 : IVec S_ 1 := (fun x v => Host.reduce IntOp.andi x v reducesTo_S1x32_S_d0_1 h_S_) main_v46 main_c_17
  let main_v48 : IVec S_ 1 := andi main_v43 main_v47
  let main_v49 : FVec F S32x32 .f32 := Host.absf main_arg10
  let main_cst_18 : FVec F S_ .f32 := constant S_ .f32 0x7F800000#32
  let main_v50 : FVec F S32x32 .f32 := broadcastInDim S32x32 ![] bcast_S_S32x32 main_cst_18
  fn_part3 (F := F) main_arg11 main_v48 main_v49 main_v50

def fn_part1 {F : FTy → Type} [FloatOps F] (main_arg4 : FVec F S256x256 .f32) (main_arg5 : FVec F S256 .f32) (main_arg6 : FVec F S256x32 .f32) (main_arg7 : FVec F S32 .f32) (main_arg8 : FVec F S1x32 .f32) (main_arg9 : FVec F S1x32 .f32) (main_arg10 : FVec F S32x32 .f32) (main_arg11 : FVec F S1x32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x32 .f32 := Host.absf main_arg6
  let main_cst_10 : FVec F S_ .f32 := constant S_ .f32 0x7F800000#32
  let main_v30 : FVec F S256x32 .f32 := broadcastInDim S256x32 ![] bcast_S_S256x32 main_cst_10
  let main_v31 : IVec S256x32 1 := cmpf .olt main_v29 main_v30
  let main_c_11 : IVec S_ 1 := constantI S_ 1 1#1
  let main_v32 : IVec S_ 1 := (fun x v => Host.reduce IntOp.andi x v reducesTo_S256x32_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x1 .f32) (main_arg1 : FVec F S65536x32 .f32) (main_arg2 : FVec F S1x256 .f32) (main_arg3 : FVec F S256 .f32) (main_arg4 : FVec F S256x256 .f32) (main_arg5 : FVec F S256 .f32) (main_arg6 : FVec F S256x32 .f32) (main_arg7 : FVec F S32 .f32) (main_arg8 : FVec F S1x32 .f32) (main_arg9 : FVec F S1x32 .f32) (main_arg10 : FVec F S32x32 .f32) (main_arg11 : FVec F S1x32 .f32) : IVec S_ 1 :=
  let main_v0 : FVec F S65536x1 .f32 := Host.absf main_arg0
  let main_cst : FVec F S_ .f32 := constant S_ .f32 0x7F800000#32
  let main_v1 : FVec F S65536x1 .f32 := broadcastInDim S65536x1 ![] bcast_S_S65536x1 main_cst
  let main_v2 : IVec S65536x1 1 := cmpf .olt main_v0 main_v1
  let main_c : IVec S_ 1 := constantI S_ 1 1#1
  let main_v3 : IVec S_ 1 := (fun x v => Host.reduce IntOp.andi x v reducesTo_S65536x1_S_d0_1 h_S_) main_v2 main_c
  let main_v4 : FVec F S65536x32 .f32 := Host.absf main_arg1
  let main_cst_0 : FVec F S_ .f32 := constant S_ .f32 0x7F800000#32
  let main_v5 : FVec F S65536x32 .f32 := broadcastInDim S65536x32 ![] bcast_S_S65536x32 main_cst_0
  let main_v6 : IVec S65536x32 1 := cmpf .olt main_v4 main_v5
  let main_c_1 : IVec S_ 1 := constantI S_ 1 1#1
  let main_v7 : IVec S_ 1 := (fun x v => Host.reduce IntOp.andi x v reducesTo_S65536x32_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S65536x1 : Shape := ⟨2, ![65536, 1]⟩
abbrev S65536x32 : Shape := ⟨2, ![65536, 32]⟩
abbrev S1x256 : Shape := ⟨2, ![1, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x32 : Shape := ⟨2, ![1, 32]⟩
abbrev S32x32 : Shape := ⟨2, ![32, 32]⟩
abbrev S512x1 : Shape := ⟨2, ![512, 1]⟩
abbrev S512x32 : Shape := ⟨2, ![512, 32]⟩
abbrev S512x256 : Shape := ⟨2, ![512, 256]⟩
abbrev S512x32x1 : Shape := ⟨3, ![512, 32, 1]⟩
abbrev S512x1x32 : Shape := ⟨3, ![512, 1, 32]⟩
abbrev S512x32x32 : Shape := ⟨3, ![512, 32, 32]⟩
abbrev S1x32x32 : Shape := ⟨3, ![1, 32, 32]⟩

abbrev nBuf : Space → Nat
  | .hbm => 18
  | .vmem => 20
  | .smem => 0
  | _ => 0

abbrev bufTy : (tb : Table) → Fin (tcTables nBuf tb) → BufTy
  | .hbm, ⟨0, _⟩ => ⟨S65536x1, .f32⟩
  | .hbm, ⟨1, _⟩ => ⟨S65536x32, .f32⟩
  | .hbm, ⟨2, _⟩ => ⟨S1x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x32, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S32x32, .f32⟩
  | .hbm, ⟨11, _⟩ => ⟨S1x32, .f32⟩
  | .hbm, ⟨12, _⟩ => ⟨S1x256, .f32⟩
  | .hbm, ⟨13, _⟩ => ⟨S1x256, .f32⟩
  | .hbm, ⟨14, _⟩ => ⟨S1x32, .f32⟩
  | .hbm, ⟨15, _⟩ => ⟨S65536x32, .f32⟩
  | .hbm, ⟨16, _⟩ => ⟨S65536x32, .f32⟩
  | .hbm, ⟨17, _⟩ => ⟨S65536x32, .f32⟩
  | .local _ .vmem, ⟨0, _⟩ => ⟨S512x1, .f32⟩
  | .local _ .vmem, ⟨1, _⟩ => ⟨S512x1, .f32⟩
  | .local _ .vmem, ⟨2, _⟩ => ⟨S512x32, .f32⟩
  | .local _ .vmem, ⟨3, _⟩ => ⟨S512x32, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S32x32, .f32⟩
  | .local _ .vmem, ⟨13, _⟩ => ⟨S1x32, .f32⟩
  | .local _ .vmem, ⟨14, _⟩ => ⟨S512x32, .f32⟩
  | .local _ .vmem, ⟨15, _⟩ => ⟨S512x32, .f32⟩
  | .local _ .vmem, ⟨16, _⟩ => ⟨S512x32, .f32⟩
  | .local _ .vmem, ⟨17, _⟩ => ⟨S512x32, .f32⟩
  | .local _ .vmem, ⟨18, _⟩ => ⟨S512x32, .f32⟩
  | .local _ .vmem, ⟨19, _⟩ => ⟨S512x32, .f32⟩
  | _, _ => ⟨S65536x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x32 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x32 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S256_S1x256 : S256.ShapeCasts S1x256
  shapeCasts_S32_S1x32 : S32.ShapeCasts S1x32
  inb_S512x1_S512x1_0_0 : ∀ a, (![0, 0] : Fin 2 → Nat) a + S512x1.size a ≤ S512x1.size a
  h_S512x1 : 0 < S512x1.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S512x1_S512x256 : S512x1.Broadcasts S512x256
  broadcasts_S1x256_S512x256 : S1x256.Broadcasts S512x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S512x32_S512x32_0_0 : ∀ a, (![0, 0] : Fin 2 → Nat) a + S512x32.size a ≤ S512x32.size a
  h_S512x32 : 0 < S512x32.numel
  inb_S32x32_S32x32_0_0 : ∀ a, (![0, 0] : Fin 2 → Nat) a + S32x32.size a ≤ S32x32.size a
  h_S32x32 : 0 < S32x32.numel
  shapeCasts_S512x32_S512x32x1 : S512x32.ShapeCasts S512x32x1
  shapeCasts_S512x32_S512x1x32 : S512x32.ShapeCasts S512x1x32
  broadcasts_S512x32x1_S512x32x32 : S512x32x1.Broadcasts S512x32x32
  broadcasts_S512x1x32_S512x32x32 : S512x1x32.Broadcasts S512x32x32
  shapeCasts_S32x32_S1x32x32 : S32x32.ShapeCasts S1x32x32
  broadcasts_S1x32x32_S512x32x32 : S1x32x32.Broadcasts S512x32x32
  reduces_S512x32x32_S512x32 : S512x32x32.Reduces [2] S512x32
  dot_S512x256_S256x256_S512x256_1_0_0_1_n_n_wf : DotDims.WF S512x256 S256x256 S512x256 [1] [0] [0] [1] [] []
  dot_S512x256_S256x32_S512x32_1_0_0_1_n_n_wf : DotDims.WF S512x256 S256x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S65536x1.size a
  hwx0_0 : ∀ i : grid0.Coords, EltTy.bits .f32 = 32 ∨ (Rect.block (s := S65536x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S65536x32.size a
  hwx0_1 : ∀ i : grid0.Coords, EltTy.bits .f32 = 32 ∨ (Rect.block (s := S65536x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x32.size a ≤ S256x32.size a
  hwx0_6 : ∀ i : grid0.Coords, EltTy.bits .f32 = 32 ∨ (Rect.block (s := S256x32) S256x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x32.size a ≤ S65536x32.size a
  hwx0_12 : ∀ i : grid0.Coords, EltTy.bits .f32 = 32 ∨ (Rect.block (s := S65536x32) S512x32.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x32.size a ≤ S65536x32.size a
  hwx0_13 : ∀ i : grid0.Coords, EltTy.bits .f32 = 32 ∨ (Rect.block (s := S65536x32) S512x32.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x32.size a ≤ S65536x32.size a
  hwx0_14 : ∀ i : grid0.Coords, EltTy.bits .f32 = 32 ∨ (Rect.block (s := S65536x32) S512x32.size (cc0_transform_14 i) (hinb0_14 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf

abbrev win0_0 : Pipeline.Window sig grid0 :=
  Pipeline.Window.ofSpec (Memref.whole main_arg0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3_0) S512x32.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3_1) S512x32.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v3_2) S512x32.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S65536x1 : Shape := ⟨2, ![65536, 1]⟩
abbrev S65536x32 : Shape := ⟨2, ![65536, 32]⟩
abbrev S1x256 : Shape := ⟨2, ![1, 256]⟩
abbrev S256 : Shape := ⟨1, ![256]⟩
abbrev S256x256 : Shape := ⟨2, ![256, 256]⟩
abbrev S256x32 : Shape := ⟨2, ![256, 32]⟩
abbrev S32 : Shape := ⟨1, ![32]⟩
abbrev S1x32 : Shape := ⟨2, ![1, 32]⟩
abbrev S32x32 : Shape := ⟨2, ![32, 32]⟩
abbrev S65536 : Shape := ⟨1, ![65536]⟩
abbrev S_ : Shape := ⟨0, ![]⟩
abbrev S65536x256 : Shape := ⟨2, ![65536, 256]⟩
abbrev S65536x32x1 : Shape := ⟨3, ![65536, 32, 1]⟩
abbrev S65536x1x32 : Shape := ⟨3, ![65536, 1, 32]⟩
abbrev S65536x32x32 : Shape := ⟨3, ![65536, 32, 32]⟩
abbrev S1x32x32 : Shape := ⟨3, ![1, 32, 32]⟩

abbrev nBuf : Space → Nat
  | .hbm => 127
  | .vmem => 0
  | .smem => 0
  | _ => 0

abbrev bufTy : (tb : Table) → Fin (tcTables nBuf tb) → BufTy
  | .hbm, ⟨0, _⟩ => ⟨S65536x1, .f32⟩
  | .hbm, ⟨1, _⟩ => ⟨S65536x32, .f32⟩
  | .hbm, ⟨2, _⟩ => ⟨S1x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x32, .f32⟩
  | .hbm, ⟨7, _⟩ => ⟨S32, .f32⟩
  | .hbm, ⟨8, _⟩ => ⟨S1x32, .f32⟩
  | .hbm, ⟨9, _⟩ => ⟨S1x32, .f32⟩
  | .hbm, ⟨10, _⟩ => ⟨S32x32, .f32⟩
  | .hbm, ⟨11, _⟩ => ⟨S1x32, .f32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S65536, .f32⟩
  | .hbm, ⟨31, _⟩ => ⟨S65536, .f32⟩
  | .hbm, ⟨32, _⟩ => ⟨S256, .f32⟩
  | .hbm, ⟨33, _⟩ => ⟨S1x256, .f32⟩
  | .hbm, ⟨34, _⟩ => ⟨S65536x1, .f32⟩
  | .hbm, ⟨35, _⟩ => ⟨S65536x256, .f32⟩
  | .hbm, ⟨36, _⟩ => ⟨S65536x256, .f32⟩
  | .hbm, ⟨37, _⟩ => ⟨S65536x256, .f32⟩
  | .hbm, ⟨38, _⟩ => ⟨S256, .f32⟩
  | .hbm, ⟨39, _⟩ => ⟨S256, .f32⟩
  | .hbm, ⟨40, _⟩ => ⟨S256, .f32⟩
  | .hbm, ⟨41, _⟩ => ⟨S256, .f32⟩
  | .hbm, ⟨42, _⟩ => ⟨S1x256, .f32⟩
  | .hbm, ⟨43, _⟩ => ⟨S65536x256, .f32⟩
  | .hbm, ⟨44, _⟩ => ⟨S65536x256, .f32⟩
  | .hbm, ⟨45, _⟩ => ⟨S65536x256, .f32⟩
  | .hbm, ⟨46, _⟩ => ⟨S1x256, .f32⟩
  | .hbm, ⟨47, _⟩ => ⟨S65536x256, .f32⟩
  | .hbm, ⟨48, _⟩ => ⟨S65536x256, .f32⟩
  | .hbm, ⟨49, _⟩ => ⟨S1x256, .f32⟩
  | .hbm, ⟨50, _⟩ => ⟨S65536x256, .f32⟩
  | .hbm, ⟨51, _⟩ => ⟨S65536x256, .f32⟩
  | .hbm, ⟨52, _⟩ => ⟨S_, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S1x256, .f32⟩
  | .hbm, ⟨57, _⟩ => ⟨S65536x256, .f32⟩
  | .hbm, ⟨58, _⟩ => ⟨S65536x256, .f32⟩
  | .hbm, ⟨59, _⟩ => ⟨S1x256, .f32⟩
  | .hbm, ⟨60, _⟩ => ⟨S65536x256, .f32⟩
  | .hbm, ⟨61, _⟩ => ⟨S65536x256, .f32⟩
  | .hbm, ⟨62, _⟩ => ⟨S1x256, .f32⟩
  | .hbm, ⟨63, _⟩ => ⟨S65536x256, .f32⟩
  | .hbm, ⟨64, _⟩ => ⟨S65536x256, .f32⟩
  | .hbm, ⟨65, _⟩ => ⟨S_, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S65536x256, .f32⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S65536x256, .f32⟩
  | .hbm, ⟨75, _⟩ => ⟨S65536x256, .f32⟩
  | .hbm, ⟨76, _⟩ => ⟨S65536x256, .f32⟩
  | .hbm, ⟨77, _⟩ => ⟨S1x256, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S65536x256, .f32⟩
  | .hbm, ⟨82, _⟩ => ⟨S65536x256, .f32⟩
  | .hbm, ⟨83, _⟩ => ⟨S_, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S65536x256, .f32⟩
  | .hbm, ⟨88, _⟩ => ⟨S65536x256, .f32⟩
  | .hbm, ⟨89, _⟩ => ⟨S65536x256, .f32⟩
  | .hbm, ⟨90, _⟩ => ⟨S65536x256, .f32⟩
  | .hbm, ⟨91, _⟩ => ⟨S65536x256, .f32⟩
  | .hbm, ⟨92, _⟩ => ⟨S65536x256, .f32⟩
  | .hbm, ⟨93, _⟩ => ⟨S_, .f32⟩
  | .hbm, ⟨94, _⟩ => ⟨S65536x256, .f32⟩
  | .hbm, ⟨95, _⟩ => ⟨S65536x256, .f32⟩
  | .hbm, ⟨96, _⟩ => ⟨S65536x256, .f32⟩
  | .hbm, ⟨97, _⟩ => ⟨S65536x256, .f32⟩
  | .hbm, ⟨98, _⟩ => ⟨S65536x256, .f32⟩
  | .hbm, ⟨99, _⟩ => ⟨S65536x256, .f32⟩
  | .hbm, ⟨100, _⟩ => ⟨S65536x256, .f32⟩
  | .hbm, ⟨101, _⟩ => ⟨S65536x32, .f32⟩
  | .hbm, ⟨102, _⟩ => ⟨S65536x32, .f32⟩
  | .hbm, ⟨103, _⟩ => ⟨S65536x32, .f32⟩
  | .hbm, ⟨104, _⟩ => ⟨S65536x32, .f32⟩
  | .hbm, ⟨105, _⟩ => ⟨S1x32, .f32⟩
  | .hbm, ⟨106, _⟩ => ⟨S65536x32, .f32⟩
  | .hbm, ⟨107, _⟩ => ⟨S65536x32, .f32⟩
  | .hbm, ⟨108, _⟩ => ⟨S65536x32x1, .f32⟩
  | .hbm, ⟨109, _⟩ => ⟨S65536x1x32, .f32⟩
  | .hbm, ⟨110, _⟩ => ⟨S65536x32x32, .f32⟩
  | .hbm, ⟨111, _⟩ => ⟨S65536x32x32, .f32⟩
  | .hbm, ⟨112, _⟩ => ⟨S65536x32x32, .f32⟩
  | .hbm, ⟨113, _⟩ => ⟨S65536x32x32, .f32⟩
  | .hbm, ⟨114, _⟩ => ⟨S1x32x32, .f32⟩
  | .hbm, ⟨115, _⟩ => ⟨S65536x32x32, .f32⟩
  | .hbm, ⟨116, _⟩ => ⟨S65536x32x32, .f32⟩
  | .hbm, ⟨117, _⟩ => ⟨S_, .f32⟩
  | .hbm, ⟨118, _⟩ => ⟨S65536x32, .f32⟩
  | .hbm, ⟨119, _⟩ => ⟨S1x32, .f32⟩
  | .hbm, ⟨120, _⟩ => ⟨S65536x32, .f32⟩
  | .hbm, ⟨121, _⟩ => ⟨S65536x32, .f32⟩
  | .hbm, ⟨122, _⟩ => ⟨S65536x32, .f32⟩
  | .hbm, ⟨123, _⟩ => ⟨S65536x32, .f32⟩
  | .hbm, ⟨124, _⟩ => ⟨S65536x32, .f32⟩
  | .hbm, ⟨125, _⟩ => ⟨S65536x32, .f32⟩
  | .hbm, ⟨126, _⟩ => ⟨S65536x32, .f32⟩
  | _, _ => ⟨S65536x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_cst_1 : Ref sig .tc := ⟨.hbm, 17, rfl⟩
abbrev main_v3 : Ref sig .tc := ⟨.hbm, 18, rfl⟩
abbrev main_cst_2 : Ref sig .tc := ⟨.hbm, 19, rfl⟩
abbrev main_cst_3 : Ref sig .tc := ⟨.hbm, 20, rfl⟩
abbrev main_v4 : Ref sig .tc := ⟨.hbm, 21, rfl⟩
abbrev main_cst_4 : Ref sig .tc := ⟨.hbm, 22, rfl⟩
abbrev main_v5 : Ref sig .tc := ⟨.hbm, 23, rfl⟩
abbrev main_v6 : Ref sig .tc := ⟨.hbm, 24, rfl⟩
abbrev main_cst_5 : Ref sig .tc := ⟨.hbm, 25, rfl⟩
abbrev main_v7 : Ref sig .tc := ⟨.hbm, 26, rfl⟩
abbrev main_cst_6 : Ref sig .tc := ⟨.hbm, 27, rfl⟩
abbrev main_v8 : Ref sig .tc := ⟨.hbm, 28, rfl⟩
abbrev main_cst_7 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_12 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]

class Facts₀ : Prop where
  shapeCasts_S65536x1_S65536 : S65536x1.ShapeCasts S65536
  bcast_S_S65536 : S_.BroadcastsInDim S65536 (![] : Fin 0 → Fin S65536.rank)
  shapeCasts_S1x256_S256 : S1x256.ShapeCasts S256
  bcast_S256_S1x256_1 : S256.BroadcastsInDim S1x256 (![1] : Fin 1 → Fin S1x256.rank)
  bcast_S65536_S65536x1_0 : S65536.BroadcastsInDim S65536x1 (![0] : Fin 1 → Fin S65536x1.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  bcast_S_S256 : S_.BroadcastsInDim S256 (![] : Fin 0 → Fin S256.rank)
  bcast_S_S65536x256 : S_.BroadcastsInDim S65536x256 (![] : Fin 0 → Fin S65536x256.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S65536x32_S65536x32x1_0_1 : S65536x32.BroadcastsInDim S65536x32x1 (![0, 1] : Fin 2 → Fin S65536x32x1.rank)
  bcast_S65536x32_S65536x1x32_0_2 : S65536x32.BroadcastsInDim S65536x1x32 (![0, 2] : Fin 2 → Fin S65536x1x32.rank)
  bcast_S65536x32x1_S65536x32x32_0_1_2 : S65536x32x1.BroadcastsInDim S65536x32x32 (![0, 1, 2] : Fin 3 → Fin S65536x32x32.rank)
  bcast_S65536x1x32_S65536x32x32_0_1_2 : S65536x1x32.BroadcastsInDim S65536x32x32 (![0, 1, 2] : Fin 3 → Fin S65536x32x32.rank)
  bcast_S32x32_S1x32x32_1_2 : S32x32.BroadcastsInDim S1x32x32 (![1, 2] : Fin 2 → Fin S1x32x32.rank)
  bcast_S1x32x32_S65536x32x32_0_1_2 : S1x32x32.BroadcastsInDim S65536x32x32 (![0, 1, 2] : Fin 3 → Fin S65536x32x32.rank)
  reducesTo_S65536x32x32_S65536x32_d2 : S65536x32x32.ReducesTo [2] S65536x32
  h_S_ : 0 < S_.numel
  dot_S65536x256_S256x256_S65536x256_1_0_0_1_n_n_wf : DotDims.WF S65536x256 S256x256 S65536x256 [1] [0] [0] [1] [] []
  dot_S65536x256_S256x32_S65536x32_1_0_0_1_n_n_wf : DotDims.WF S65536x256 S256x32 S65536x32 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x32_S65536x32_1_0_0_1_n_n : DotDims S65536x256 S256x32 S65536x32 where
  lhsContracting := [1]
  rhsContracting := [0]
  lhsNonContracting := [0]
  rhsNonContracting := [1]
  lhsBatch := []
  rhsBatch := []
  wf := dot_S65536x256_S256x32_S65536x32_1_0_0_1_n_n_wf

class Facts : Prop extends Facts₀ where

variable [Facts]
-- ==== Proof.Spec.lean ====
/-
  The network this certificate is about, over the reals, one sample at a time.

  A sample is a time `s`. With `x = s/10 - 1` the two hidden layers are
  `h0 k = tanh (x * w0 k + b0 k)` and `h1 k' = tanh (∑ k, h0 k * W1 k k' + b1 k')`, and the output is
  `out j = ∑ k, h1 k * W2 k j + b2 j`. Differentiating in `s` (the input enters through `x`, whose
  derivative is the constant `1/10`), with `s_l = 1 - h_l ^ 2` the derivative of `tanh` at layer `l`:
  `dh0 = s0 * g`, `d2h0 = (-2 * h0 * s0) * g^2` for `g k = w0 k / 10`; a linear layer passes a
  derivative through unchanged (`dz1 = dh0 · W1`, `d2z1 = d2h0 · W1`), and
  `dh1 = s1 * dz1`, `d2h1 = (-2 * h1 * s1) * dz1^2 + s1 * d2z1`; so `outT = dh1 · W2`, `outTT = d2h1 · W2`.
  The residual is `lm * bus * outTT + ld * outT + ∑ j, lb i j * sin (out i - out j) - p`.

  Both programs compute these three results on extended reals; on finite inputs every intermediate
  value is a real number, and the results are the coercions of the functions below.
-/
import Idealize.ShloMosaic.PureOps.Ideal
import Idealize.ShloMosaic.Lib.ValueIdx

noncomputable section

namespace Cert.Pinn

open Idealize.ShloMosaic Idealize.ShloMosaic.ValueIdx

/-- The network's parameters as real numbers. -/
structure Wts where
  w0 : Fin 256 → ℝ
  b0 : Fin 256 → ℝ
  W1 : Fin 256 → Fin 256 → ℝ
  b1 : Fin 256 → ℝ
  W2 : Fin 256 → Fin 32 → ℝ
  b2 : Fin 32 → ℝ
  lm : Fin 32 → ℝ
  ld : Fin 32 → ℝ
  lb : Fin 32 → Fin 32 → ℝ
  bus : Fin 32 → ℝ

namespace Wts

variable (W : Wts)

/-- The normalised input `s/10 - 1`. -/
def x (s : ℝ) : ℝ := s * (1 / 10) - 1
/-- The derivative of the first layer's pre-activation in `s`. -/
def g (k : Fin 256) : ℝ := (1 / 10) * W.w0 k
def h0 (s : ℝ) (k : Fin 256) : ℝ := Real.tanh (x s * W.w0 k + W.b0 k)
def s0 (s : ℝ) (k : Fin 256) : ℝ := 1 - W.h0 s k * W.h0 s k
def dh0 (s : ℝ) (k : Fin 256) : ℝ := W.s0 s k * W.g k
def d2h0 (s : ℝ) (k : Fin 256) : ℝ := ((-2) * W.h0 s k * W.s0 s k) * (W.g k * W.g k)
def h1 (s : ℝ) (k' : Fin 256) : ℝ := Real.tanh (∑ k : Fin 256, W.h0 s k * W.W1 k k' + W.b1 k')
def s1 (s : ℝ) (k : Fin 256) : ℝ := 1 - W.h1 s k * W.h1 s k
def dz1 (s : ℝ) (k' : Fin 256) : ℝ := ∑ k : Fin 256, W.dh0 s k * W.W1 k k'
def d2z1 (s : ℝ) (k' : Fin 256) : ℝ := ∑ k : Fin 256, W.d2h0 s k * W.W1 k k'
def dh1 (s : ℝ) (k : Fin 256) : ℝ := W.s1 s k * W.dz1 s k
def d2h1 (s : ℝ) (k : Fin 256) : ℝ :=
  ((-2) * W.h1 s k * W.s1 s k) * (W.dz1 s k * W.dz1 s k) + W.s1 s k * W.d2z1 s k
def out (s : ℝ) (j : Fin 32) : ℝ := ∑ k : Fin 256, W.h1 s k * W.W2 k j + W.b2 j
def outT (s : ℝ) (j : Fin 32) : ℝ := ∑ k : Fin 256, W.dh1 s k * W.W2 k j
def outTT (s : ℝ) (j : Fin 32) : ℝ := ∑ k : Fin 256, W.d2h1 s k * W.W2 k j
def conn (s : ℝ) (i : Fin 32) : ℝ := ∑ j : Fin 32, W.lb i j * Real.sin (W.out s i - W.out s j)
def phys (s p : ℝ) (i : Fin 32) : ℝ :=
  W.lm i * W.bus i * W.outTT s i + W.ld i * W.outT s i + W.conn s i - p

end Wts

/-! ## Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is neither infinity is the coercion of its real part. -/
theorem eq_coe_toReal {a : EReal} (h1 : a ≠ ⊤) (h2 : a ≠ ⊥) : a = ((a.toReal : ℝ) : EReal) :=
  (EReal.coe_toReal h1 h2).symm

/-! ## The float constants the two programs spell, as extended reals -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_twenty : Ideal.ofBits .f32 0x41A00000#32 = ((20 : ℝ) : EReal) := by
  simp [Ideal.ofBits, Ideal.ieee, -EReal.coe_mul]; norm_num

/-- Dividing a real by `20` on the extended reals. -/
theorem div_twenty (a : ℝ) : Ideal.div (a : EReal) ((20 : ℝ) : EReal) = ((a / 20 : ℝ) : EReal) := by
  rw [Ideal.div_coe (by norm_num : (20 : ℝ) ≠ 0), ← EReal.coe_mul]; congr 1; ring

/-! ## Parameters and inputs read off extended-real arrays -/

/-- An array all of whose entries are real numbers. -/
def AllReal {ι : Type} (a : ι → EReal) : Prop := ∀ i, a i = (((a i).toReal : ℝ) : EReal)

/-- The parameters' real parts. -/
def wtsOf (a2 : (⟨2, ![1, 256]⟩ : Shape).Idx → EReal) (a3 : (⟨1, ![256]⟩ : Shape).Idx → EReal)
    (a4 : (⟨2, ![256, 256]⟩ : Shape).Idx → EReal) (a5 : (⟨1, ![256]⟩ : Shape).Idx → EReal)
    (a6 : (⟨2, ![256, 32]⟩ : Shape).Idx → EReal) (a7 : (⟨1, ![32]⟩ : Shape).Idx → EReal)
    (a8 a9 : (⟨2, ![1, 32]⟩ : Shape).Idx → EReal) (a10 : (⟨2, ![32, 32]⟩ : Shape).Idx → EReal)
    (a11 : (⟨2, ![1, 32]⟩ : Shape).Idx → EReal) : Wts where
  w0 k := (a2 (ix2 (0 : Fin 1) k)).toReal
  b0 k := (a3 (ix1 k)).toReal
  W1 k k' := (a4 (ix2 k k')).toReal
  b1 k := (a5 (ix1 k)).toReal
  W2 k j := (a6 (ix2 k j)).toReal
  b2 j := (a7 (ix1 j)).toReal
  lm i := (a8 (ix2 (0 : Fin 1) i)).toReal
  ld i := (a9 (ix2 (0 : Fin 1) i)).toReal
  lb i j := (a10 (ix2 i j)).toReal
  bus i := (a11 (ix2 (0 : Fin 1) i)).toReal

/-- The samples' times. -/
def timeOf (a0 : (⟨2, ![65536, 1]⟩ : Shape).Idx → EReal) (n : Fin 65536) : ℝ := (a0 (ix2 n (0 : Fin 1))).toReal
/-- The injected powers. -/
def powOf (a1 : (⟨2, ![65536, 32]⟩ : Shape).Idx → EReal) (n : Fin 65536) (j : Fin 32) : ℝ := (a1 (ix2 n j)).toReal

/-! ## The three results as whole arrays -/

def GOut (W : Wts) (tr : Fin 65536 → ℝ) : (⟨2, ![65536, 32]⟩ : Shape).Idx → EReal :=
  fun i => ((W.out (tr (i 0)) (i 1) : ℝ) : EReal)
def GOutT (W : Wts) (tr : Fin 65536 → ℝ) : (⟨2, ![65536, 32]⟩ : Shape).Idx → EReal :=
  fun i => ((W.outT (tr (i 0)) (i 1) : ℝ) : EReal)
def GPhys (W : Wts) (tr : Fin 65536 → ℝ) (pr : Fin 65536 → Fin 32 → ℝ) : (⟨2, ![65536, 32]⟩ : Shape).Idx → EReal :=
  fun i => ((W.phys (tr (i 0)) (pr (i 0) (i 1)) (i 1) : ℝ) : EReal)

theorem GOut_ix2 (W : Wts) (tr : Fin 65536 → ℝ) (n : Fin 65536) (j : Fin 32) :
    GOut W tr (ix2 n j) = ((W.out (tr n) j : ℝ) : EReal) := rfl
theorem GOutT_ix2 (W : Wts) (tr : Fin 65536 → ℝ) (n : Fin 65536) (j : Fin 32) :
    GOutT W tr (ix2 n j) = ((W.outT (tr n) j : ℝ) : EReal) := rfl
theorem GPhys_ix2 (W : Wts) (tr : Fin 65536 → ℝ) (pr : Fin 65536 → Fin 32 → ℝ) (n : Fin 65536) (j : Fin 32) :
    GPhys W tr pr (ix2 n j) = ((W.phys (tr n) (pr n j) j : ℝ) : EReal) := rfl

end Cert.Pinn

end
-- ==== Proof.KernelRow.lean ====
/-
  The kernel's body at one row of a grid point's block.

  Row `r` of a block depends only on that row of the time and power blocks and on the parameters;
  when those are real numbers, the three stored values at `(r, j)` are the coercions of the
  network's output, its time derivative and the residual of that sample.
-/
import proofs.«127954_j13030930776227_1_alg».proof.Proof.Gen.KernelIdeal.Skeleton
import proofs.«127954_j13030930776227_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Row

open Cert.KernelIdeal Cert.KernelIdeal.Gen Idealize.ShloMosaic Idealize.ShloMosaic.TcCoe Idealize.ShloMosaic.ValueIdx Cert.Pinn

/-- The loads of one grid point are real: the time and power blocks row by row, the parameters entry by entry. -/
structure BlockReal (W : Wts) (tb : Fin 512 → ℝ) (pb : Fin 512 → Fin 32 → ℝ)
    (v0 : Vec Ideal S512x1 .f32) (v1 : Vec Ideal S512x32 .f32) (v2 v3 : Vec Ideal S1x256 .f32)
    (v4 : Vec Ideal S256x256 .f32) (v5 : Vec Ideal S1x256 .f32) (v6 : Vec Ideal S256x32 .f32)
    (v7 v8 v9 : Vec Ideal S1x32 .f32) (v10 : Vec Ideal S32x32 .f32) (v11 : Vec Ideal S1x32 .f32) : Prop where
  t : ∀ r : Fin 512, v0 (ix2 r (0 : Fin 1)) = ((tb r : ℝ) : EReal)
  p : ∀ (r : Fin 512) (j : Fin 32), v1 (ix2 r j) = ((pb r j : ℝ) : EReal)
  w0 : ∀ k : Fin 256, v2 (ix2 (0 : Fin 1) k) = ((W.w0 k : ℝ) : EReal)
  b0 : ∀ k : Fin 256, v3 (ix2 (0 : Fin 1) k) = ((W.b0 k : ℝ) : EReal)
  W1 : ∀ k k' : Fin 256, v4 (ix2 k k') = ((W.W1 k k' : ℝ) : EReal)
  b1 : ∀ k : Fin 256, v5 (ix2 (0 : Fin 1) k) = ((W.b1 k : ℝ) : EReal)
  W2 : ∀ (k : Fin 256) (j : Fin 32), v6 (ix2 k j) = ((W.W2 k j : ℝ) : EReal)
  b2 : ∀ j : Fin 32, v7 (ix2 (0 : Fin 1) j) = ((W.b2 j : ℝ) : EReal)
  lm : ∀ i : Fin 32, v8 (ix2 (0 : Fin 1) i) = ((W.lm i : ℝ) : EReal)
  ld : ∀ i : Fin 32, v9 (ix2 (0 : Fin 1) i) = ((W.ld i : ℝ) : EReal)
  lb : ∀ i j : Fin 32, v10 (ix2 i j) = ((W.lb i j : ℝ) : EReal)
  bus : ∀ i : Fin 32, v11 (ix2 (0 : Fin 1) i) = ((W.bus i : ℝ) : EReal)

variable {W : Wts} {tb : Fin 512 → ℝ} {pb : Fin 512 → Fin 32 → ℝ}
  {v0 : Vec Ideal S512x1 .f32} {v1 : Vec Ideal S512x32 .f32} {v2 v3 : Vec Ideal S1x256 .f32}
  {v4 : Vec Ideal S256x256 .f32} {v5 : Vec Ideal S1x256 .f32} {v6 : Vec Ideal S256x32 .f32}
  {v7 v8 v9 : Vec Ideal S1x32 .f32} {v10 : Vec Ideal S32x32 .f32} {v11 : Vec Ideal S1x32 .f32}

/-! ## Layout operations read at an index given by coordinates -/

section Layout
variable {α : Type}

/-- An `[a, 1]` column broadcast to `[a, b]` reads, at `(p, c)`, the column's entry of row `p`. -/
private theorem bcast_col {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array broadcast to `[a, b, c]` reads, at `(p, q, r)`, the operand at `(p, q, 0)`. -/
private theorem bcast_ab1 {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An `[a, 1, c]` array broadcast to `[a, b, c]` reads, at `(p, q, r)`, the operand at `(p, 0, r)`. -/
private theorem bcast_a1c {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array broadcast to `[a, b, c]` reads, at `(p, q, r)`, the operand at `(0, q, r)`. -/
private theorem bcast_1bc {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An `[a, b]` array cast to `[a, b, 1]` reads, at `(p, q, u)`, the operand at `(p, q)`. -/
private theorem cast_ab_ab1 {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An `[a, b]` array cast to `[a, 1, b]` reads, at `(p, u, q)`, the operand at `(p, q)`. -/
private theorem cast_ab_a1b {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

end Layout

/-! ## The two contractions read at an index -/

private theorem lhsA_0 (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
private theorem lhsA_1 (i : S512x256.Idx) (q : dot_S512x256_S256x256_S512x256_1_0_0_1_n_n.contr.Idx) :
    (dot_S512x256_S256x256_S512x256_1_0_0_1_n_n.lhsIdx i q 1).val = (q ⟨0, by decide⟩).val :=
  dot_S512x256_S256x256_S512x256_1_0_0_1_n_n.lhsIdx_val_of_single rfl i q
private theorem rhsA_0 (i : S512x256.Idx) (q : dot_S512x256_S256x256_S512x256_1_0_0_1_n_n.contr.Idx) :
    (dot_S512x256_S256x256_S512x256_1_0_0_1_n_n.rhsIdx i q 0).val = (q ⟨0, by decide⟩).val :=
  dot_S512x256_S256x256_S512x256_1_0_0_1_n_n.rhsIdx_val_of_single rfl i q
private theorem rhsA_1 (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The hidden-layer contraction into the zero accumulator at `(r, q)`: the row of the left operand against the column of the right. -/
private theorem matmulA_apply {φ₁ φ₂ : FTy} (lhs : FVec Ideal S512x256 φ₁) (rhs : FVec Ideal S256x256 φ₂) (r : Fin 512) (q : Fin 256) :
    matmul dot_S512x256_S256x256_S512x256_1_0_0_1_n_n none lhs rhs (constant (F := Ideal) S512x256 .f32 0x00000000#32) (ix2 r q)
      = ∑ k : Fin 256, lhs (ix2 r k) * rhs (ix2 k q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 r q) ((ValueIdx.contrEquiv1 dot_S512x256_S256x256_S512x256_1_0_0_1_n_n 256 rfl rfl).symm k) = ix2 r k := funext fun a => Fin.ext (by
    match a with
    | ⟨0, _⟩ => exact lhsA_0 _ _
    | ⟨1, _⟩ => exact (lhsA_1 _ _).trans hk)
  have er : dot_S512x256_S256x256_S512x256_1_0_0_1_n_n.rhsIdx (ix2 r q) ((ValueIdx.contrEquiv1 dot_S512x256_S256x256_S512x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

private theorem lhsB_0 (i : S512x32.Idx) (q : dot_S512x256_S256x32_S512x32_1_0_0_1_n_n.contr.Idx) :
    (dot_S512x256_S256x32_S512x32_1_0_0_1_n_n.lhsIdx i q 0).val = (i 0).val := by
  unfold DotDims.lhsIdx
  rw [dif_neg (show ¬(0 : Fin S512x256.rank) ∈ dot_S512x256_S256x32_S512x32_1_0_0_1_n_n.lhsBatch by decide), dif_pos (show (0 : Fin S512x256.rank) ∈ dot_S512x256_S256x32_S512x32_1_0_0_1_n_n.lhsNonContracting by decide)]
  rfl
private theorem lhsB_1 (i : S512x32.Idx) (q : dot_S512x256_S256x32_S512x32_1_0_0_1_n_n.contr.Idx) :
    (dot_S512x256_S256x32_S512x32_1_0_0_1_n_n.lhsIdx i q 1).val = (q ⟨0, by decide⟩).val :=
  dot_S512x256_S256x32_S512x32_1_0_0_1_n_n.lhsIdx_val_of_single rfl i q
private theorem rhsB_0 (i : S512x32.Idx) (q : dot_S512x256_S256x32_S512x32_1_0_0_1_n_n.contr.Idx) :
    (dot_S512x256_S256x32_S512x32_1_0_0_1_n_n.rhsIdx i q 0).val = (q ⟨0, by decide⟩).val :=
  dot_S512x256_S256x32_S512x32_1_0_0_1_n_n.rhsIdx_val_of_single rfl i q
private theorem rhsB_1 (i : S512x32.Idx) (q : dot_S512x256_S256x32_S512x32_1_0_0_1_n_n.contr.Idx) :
    (dot_S512x256_S256x32_S512x32_1_0_0_1_n_n.rhsIdx i q 1).val = (i 1).val := by
  unfold DotDims.rhsIdx
  rw [dif_neg (show ¬(1 : Fin S256x32.rank) ∈ dot_S512x256_S256x32_S512x32_1_0_0_1_n_n.rhsBatch by decide), dif_pos (show (1 : Fin S256x32.rank) ∈ dot_S512x256_S256x32_S512x32_1_0_0_1_n_n.rhsNonContracting by decide)]
  rfl

/-- The output-layer contraction into the zero accumulator at `(r, j)`. -/
private theorem matmulB_apply {φ₁ φ₂ : FTy} (lhs : FVec Ideal S512x256 φ₁) (rhs : FVec Ideal S256x32 φ₂) (r : Fin 512) (j : Fin 32) :
    matmul dot_S512x256_S256x32_S512x32_1_0_0_1_n_n none lhs rhs (constant (F := Ideal) S512x32 .f32 0x00000000#32) (ix2 r j)
      = ∑ k : Fin 256, lhs (ix2 r k) * rhs (ix2 k j) := by
  simp only [matmul]
  rw [Ideal.matmul_constant_zero_apply, ← Equiv.sum_comp (ValueIdx.contrEquiv1 dot_S512x256_S256x32_S512x32_1_0_0_1_n_n 256 rfl rfl).symm]
  refine Finset.sum_congr rfl fun k _ => ?_
  have hk := ValueIdx.contrEquiv1_symm_val dot_S512x256_S256x32_S512x32_1_0_0_1_n_n 256 rfl rfl k
  have el : dot_S512x256_S256x32_S512x32_1_0_0_1_n_n.lhsIdx (ix2 r j) ((ValueIdx.contrEquiv1 dot_S512x256_S256x32_S512x32_1_0_0_1_n_n 256 rfl rfl).symm k) = ix2 r k := funext fun a => Fin.ext (by
    match a with
    | ⟨0, _⟩ => exact lhsB_0 _ _
    | ⟨1, _⟩ => exact (lhsB_1 _ _).trans hk)
  have er : dot_S512x256_S256x32_S512x32_1_0_0_1_n_n.rhsIdx (ix2 r j) ((ValueIdx.contrEquiv1 dot_S512x256_S256x32_S512x32_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-! ## The lane sum and the named constant -/

/-- The sum over the last axis of a `[512, 32, 32]` array at `(r, i)`. -/
private theorem laneSum_apply (src : FVec Ideal S512x32x32 .f32) (hφ : FKind.Formats .f32)
    (hacc : (0x00000000#32 : BitVec 32) = 0x00000000#32) (r : Fin 512) (i : Fin 32) :
    multiReduction (F := Ideal) .add [2] S512x32 src 0x00000000#32 reduces_S512x32x32_S512x32 hφ hacc (ix2 r i)
      = ∑ j : Fin 32, src (ix3 r i j) := by
  refine (Ideal.multiReduction_add_single src 0x00000000#32 _ _ _ (ix2 r i)).trans ?_
  exact Finset.sum_congr rfl fun k _ => congrArg src (funext fun a => Fin.ext (by
    match a with
    | ⟨0, _⟩ => rfl
    | ⟨1, _⟩ => rfl
    | ⟨2, _⟩ => rfl))

/-- The named constant `inv_10` is the real `1/10`. -/
private theorem inv10 : Named.named (F := Ideal) Cert.KernelIdeal.κ "inv_10" (φ := .f32) 0x3DCCCCCD#32 = ((1 / 10 : ℝ) : EReal) :=
  IdealRules.named_const.ideal_named_scalar _ _ _ _ rfl

/-! ## Elementwise functions and scalar constants at the extended reals -/

private theorem tanh_apply {s : Shape} {φ : FTy} (a : FVec Ideal s φ) (i : s.Idx) : tanh a i = Ideal.tanh (a i) := rfl
private theorem sin_apply {s : Shape} {φ : FTy} (a : FVec Ideal s φ) (i : s.Idx) : sin a i = Ideal.sin (a i) := rfl
private theorem scalar_ofBits (b : BitVec 32) : Scalar.ofBits (F := Ideal) .f32 b = Ideal.ofBits .f32 b := rfl

/-! ## The first hidden layer and its derivatives -/

/-- The first hidden layer at `(r, k)`. -/
private theorem pay2_apply (h : BlockReal W tb pb v0 v1 v2 v3 v4 v5 v6 v7 v8 v9 v10 v11) (r : Fin 512) (k : Fin 256) :
    k0_pay2 (F := Ideal) v0 v2 v3 (ix2 r k) = ((W.h0 (tb r) k : ℝ) : EReal) := by
  unfold k0_pay2
  simp only [tanh_apply, addf_apply, mulf_apply]
  rw [bcast_col, broadcastTo_1b_ab_apply, broadcastTo_1b_ab_apply, shapeCast_self]
  simp only [subf_apply, mulf_apply, broadcast_apply, h.t, h.w0, h.b0, inv10, scalar_ofBits, ofBits_one]
  simp only [← EReal.coe_mul, ← EReal.coe_add, ← EReal.coe_sub, Ideal.tanh_coe]
  rfl

/-- The derivative of `tanh` at the first layer. -/
private theorem pay3_apply (h : BlockReal W tb pb v0 v1 v2 v3 v4 v5 v6 v7 v8 v9 v10 v11) (r : Fin 512) (k : Fin 256) :
    k0_pay3 (F := Ideal) v0 v2 v3 (ix2 r k) = ((W.s0 (tb r) k : ℝ) : EReal) := by
  unfold k0_pay3
  simp only [subf_apply, mulf_apply, broadcast_apply, pay2_apply h, scalar_ofBits, ofBits_one]
  simp only [← EReal.coe_mul, ← EReal.coe_sub]
  rfl

/-- The derivative of the first pre-activation in the input. -/
private theorem pay4_apply (h : BlockReal W tb pb v0 v1 v2 v3 v4 v5 v6 v7 v8 v9 v10 v11) (k : Fin 256) :
    k0_pay4 (F := Ideal) v2 (ix2 (0 : Fin 1) k) = ((W.g k : ℝ) : EReal) := by
  unfold k0_pay4
  simp only [mulf_apply, broadcast_apply, inv10, h.w0]
  simp only [← EReal.coe_mul]
  rfl

/-- The second derivative of the first layer. -/
private theorem pay5_apply (h : BlockReal W tb pb v0 v1 v2 v3 v4 v5 v6 v7 v8 v9 v10 v11) (r : Fin 512) (k : Fin 256) :
    k0_pay5 (F := Ideal) v0 v2 v3 (ix2 r k) = ((W.d2h0 (tb r) k : ℝ) : EReal) := by
  unfold k0_pay5
  simp only [mulf_apply, broadcast_apply]
  rw [broadcastTo_1b_ab_apply]
  simp only [mulf_apply, pay2_apply h, pay3_apply h, pay4_apply h, scalar_ofBits, ofBits_neg_two]
  simp only [← EReal.coe_mul]
  rfl

/-- The second layer's weights, narrowed: the same real numbers. -/
private theorem pay6_apply (h : BlockReal W tb pb v0 v1 v2 v3 v4 v5 v6 v7 v8 v9 v10 v11) (k k' : Fin 256) :
    k0_pay6 (F := Ideal) v4 (ix2 k k') = ((W.W1 k k' : ℝ) : EReal) := by
  unfold k0_pay6
  rw [truncf_apply, h.W1]

/-- The output layer's weights, narrowed: the same real numbers. -/
private theorem pay10_apply (h : BlockReal W tb pb v0 v1 v2 v3 v4 v5 v6 v7 v8 v9 v10 v11) (k : Fin 256) (j : Fin 32) :
    k0_pay10 (F := Ideal) v6 (ix2 k j) = ((W.W2 k j : ℝ) : EReal) := by
  unfold k0_pay10
  rw [truncf_apply, h.W2]

/-! ## The second hidden layer and its derivatives -/

/-- The derivative of the second pre-activation: the first layer's derivative through the weights. -/
private theorem pay9_apply (h : BlockReal W tb pb v0 v1 v2 v3 v4 v5 v6 v7 v8 v9 v10 v11) (r : Fin 512) (k' : Fin 256) :
    k0_pay9 (F := Ideal) v0 v2 v3 v4 (ix2 r k') = ((W.dz1 (tb r) k' : ℝ) : EReal) := by
  unfold k0_pay9
  refine (matmulA_apply _ _ r k').trans ?_
  unfold Wts.dz1
  rw [coe_sum]
  refine Finset.sum_congr rfl fun k _ => ?_
  rw [truncf_apply, mulf_apply, broadcastTo_1b_ab_apply, pay3_apply h, pay4_apply h, pay6_apply h,
    ← EReal.coe_mul, ← EReal.coe_mul]
  rfl

/-- The second hidden layer at `(r, k')`. -/
private theorem pay7_apply (h : BlockReal W tb pb v0 v1 v2 v3 v4 v5 v6 v7 v8 v9 v10 v11) (r : Fin 512) (k' : Fin 256) :
    k0_pay7 (F := Ideal) v0 v2 v3 v4 v5 (ix2 r k') = ((W.h1 (tb r) k' : ℝ) : EReal) := by
  unfold k0_pay7
  simp only [tanh_apply, addf_apply]
  rw [broadcastTo_1b_ab_apply, shapeCast_self, h.b1]
  have hs : matmul dot_S512x256_S256x256_S512x256_1_0_0_1_n_n none
      (truncf .bf16 (k0_pay2 (F := Ideal) v0 v2 v3) bitsLt_bf16_f32) (k0_pay6 (F := Ideal) v4)
      (constant (F := Ideal) S512x256 .f32 0x00000000#32) (ix2 r k')
      = ((∑ k : Fin 256, W.h0 (tb r) k * W.W1 k k' : ℝ) : EReal) := by
    refine (matmulA_apply _ _ r k').trans ?_
    rw [coe_sum]
    refine Finset.sum_congr rfl fun k _ => ?_
    rw [truncf_apply, pay2_apply h, pay6_apply h, ← EReal.coe_mul]
  rw [hs, ← EReal.coe_add, Ideal.tanh_coe]
  rfl

/-- The derivative of `tanh` at the second layer. -/
private theorem pay8_apply (h : BlockReal W tb pb v0 v1 v2 v3 v4 v5 v6 v7 v8 v9 v10 v11) (r : Fin 512) (k' : Fin 256) :
    k0_pay8 (F := Ideal) v0 v2 v3 v4 v5 (ix2 r k') = ((W.s1 (tb r) k' : ℝ) : EReal) := by
  unfold k0_pay8
  simp only [subf_apply, mulf_apply, broadcast_apply, pay7_apply h, scalar_ofBits, ofBits_one]
  simp only [← EReal.coe_mul, ← EReal.coe_sub]
  rfl

/-! ## The output layer, for any real hidden values -/

/-- The output layer applied to an array of real hidden values. -/
private theorem pay11_apply (h : BlockReal W tb pb v0 v1 v2 v3 v4 v5 v6 v7 v8 v9 v10 v11) (v35 : FVec Ideal S512x256 .f32) (H : Fin 512 → Fin 256 → ℝ)
    (h35 : ∀ (r : Fin 512) (k : Fin 256), v35 (ix2 r k) = ((H r k : ℝ) : EReal)) (r : Fin 512) (j : Fin 32) :
    k0_pay11 (F := Ideal) v35 v6 v7 (ix2 r j) = ((∑ k : Fin 256, H r k * W.W2 k j + W.b2 j : ℝ) : EReal) := by
  unfold k0_pay11
  simp only [addf_apply]
  rw [broadcastTo_1b_ab_apply, shapeCast_self, h.b2]
  have hs : matmul dot_S512x256_S256x32_S512x32_1_0_0_1_n_n none
      (truncf .bf16 v35 bitsLt_bf16_f32) (k0_pay10 (F := Ideal) v6)
      (constant (F := Ideal) S512x32 .f32 0x00000000#32) (ix2 r j)
      = ((∑ k : Fin 256, H r k * W.W2 k j : ℝ) : EReal) := by
    refine (matmulB_apply _ _ r j).trans ?_
    rw [coe_sum]
    refine Finset.sum_congr rfl fun k _ => ?_
    rw [truncf_apply, h35, pay10_apply h, ← EReal.coe_mul]
  rw [hs, ← EReal.coe_add]

/-- The output layer applied to the product of two arrays of real values. -/
private theorem pay12_apply (h : BlockReal W tb pb v0 v1 v2 v3 v4 v5 v6 v7 v8 v9 v10 v11) (v38 v40 : FVec Ideal S512x256 .f32) (A B : Fin 512 → Fin 256 → ℝ)
    (h38 : ∀ (r : Fin 512) (k : Fin 256), v38 (ix2 r k) = ((A r k : ℝ) : EReal))
    (h40 : ∀ (r : Fin 512) (k : Fin 256), v40 (ix2 r k) = ((B r k : ℝ) : EReal)) (r : Fin 512) (j : Fin 32) :
    k0_pay12 (F := Ideal) v38 v40 v6 (ix2 r j) = ((∑ k : Fin 256, (A r k * B r k) * W.W2 k j : ℝ) : EReal) := by
  unfold k0_pay12
  refine (matmulB_apply _ _ r j).trans ?_
  rw [coe_sum]
  refine Finset.sum_congr rfl fun k _ => ?_
  rw [truncf_apply, mulf_apply, h38, h40, pay10_apply h, ← EReal.coe_mul, ← EReal.coe_mul]

/-- The output layer applied to the second derivative of the second hidden layer, built from real arrays. -/
private theorem pay13_apply (h : BlockReal W tb pb v0 v1 v2 v3 v4 v5 v6 v7 v8 v9 v10 v11) (v26 : FVec Ideal S512x256 .f32) (v30 : FVec Ideal S256x256 .bf16)
    (v35 v38 v40 : FVec Ideal S512x256 .f32)
    (D2 : Fin 512 → Fin 256 → ℝ) (M : Fin 256 → Fin 256 → ℝ) (H S Z : Fin 512 → Fin 256 → ℝ)
    (h26 : ∀ (r : Fin 512) (k : Fin 256), v26 (ix2 r k) = ((D2 r k : ℝ) : EReal))
    (h30 : ∀ (k k' : Fin 256), v30 (ix2 k k') = ((M k k' : ℝ) : EReal))
    (h35 : ∀ (r : Fin 512) (k : Fin 256), v35 (ix2 r k) = ((H r k : ℝ) : EReal))
    (h38 : ∀ (r : Fin 512) (k : Fin 256), v38 (ix2 r k) = ((S r k : ℝ) : EReal))
    (h40 : ∀ (r : Fin 512) (k : Fin 256), v40 (ix2 r k) = ((Z r k : ℝ) : EReal)) (r : Fin 512) (j : Fin 32) :
    k0_pay13 (F := Ideal) v26 v30 v35 v38 v40 v6 (ix2 r j)
      = ((∑ k' : Fin 256, (((-2) * H r k' * S r k') * (Z r k' * Z r k') + S r k' * ∑ k : Fin 256, D2 r k * M k k') * W.W2 k' j : ℝ) : EReal) := by
  unfold k0_pay13
  refine (matmulB_apply _ _ r j).trans ?_
  rw [coe_sum]
  refine Finset.sum_congr rfl fun k' _ => ?_
  have hs : matmul dot_S512x256_S256x256_S512x256_1_0_0_1_n_n none
      (truncf .bf16 v26 bitsLt_bf16_f32) v30
      (constant (F := Ideal) S512x256 .f32 0x00000000#32) (ix2 r k')
      = ((∑ k : Fin 256, D2 r k * M k k' : ℝ) : EReal) := by
    refine (matmulA_apply _ _ r k').trans ?_
    rw [coe_sum]
    refine Finset.sum_congr rfl fun k _ => ?_
    rw [truncf_apply, h26, h30, ← EReal.coe_mul]
  simp only [truncf_apply, addf_apply, mulf_apply, broadcast_apply]
  rw [hs, h35, h38, h40, pay10_apply h, scalar_ofBits, ofBits_neg_two]
  simp only [← EReal.coe_mul, ← EReal.coe_add]

/-! ## The three stored values -/

/-- The first stored value at `(r, j)`: the network's output for the row's sample. -/
theorem out_row (h : BlockReal W tb pb v0 v1 v2 v3 v4 v5 v6 v7 v8 v9 v10 v11) (r : Fin 512) (j : Fin 32) :
    k0_pay11 (F := Ideal) (k0_pay7 v0 v2 v3 v4 v5) v6 v7 (ix2 r j) = ((W.out (tb r) j : ℝ) : EReal) :=
  pay11_apply h _ (fun r k => W.h1 (tb r) k) (pay7_apply h) r j

/-- The second stored value at `(r, j)`: the output's time derivative. -/
theorem outT_row (h : BlockReal W tb pb v0 v1 v2 v3 v4 v5 v6 v7 v8 v9 v10 v11) (r : Fin 512) (j : Fin 32) :
    k0_pay12 (F := Ideal) (k0_pay8 v0 v2 v3 v4 v5) (k0_pay9 v0 v2 v3 v4) v6 (ix2 r j) = ((W.outT (tb r) j : ℝ) : EReal) :=
  pay12_apply h _ _ (fun r k => W.s1 (tb r) k) (fun r k => W.dz1 (tb r) k) (pay8_apply h) (pay9_apply h) r j

/-- The pairwise differences of the outputs at `(r, i, j)`. -/
private theorem pay14_apply (h : BlockReal W tb pb v0 v1 v2 v3 v4 v5 v6 v7 v8 v9 v10 v11) (r : Fin 512) (i j : Fin 32) :
    k0_pay14 (F := Ideal) (k0_pay7 v0 v2 v3 v4 v5) v6 v7 (ix3 r i j)
      = ((W.out (tb r) i - W.out (tb r) j : ℝ) : EReal) := by
  unfold k0_pay14
  simp only [subf_apply]
  rw [bcast_ab1, bcast_a1c, cast_ab_ab1, cast_ab_a1b, out_row h, out_row h, ← EReal.coe_sub]

/-- The coupling matrix under a leading unit axis. -/
private theorem pay15_apply (h : BlockReal W tb pb v0 v1 v2 v3 v4 v5 v6 v7 v8 v9 v10 v11) (i j : Fin 32) :
    k0_pay15 (F := Ideal) v10 (ix3 (0 : Fin 1) i j) = ((W.lb i j : ℝ) : EReal) := by
  unfold k0_pay15
  rw [shapeCast_ab_1ab_apply, h.lb]

/-- The residual assembled from real arrays: the two derivative terms, the coupling sum over the last axis, less the power. -/
private theorem pay1_apply (h : BlockReal W tb pb v0 v1 v2 v3 v4 v5 v6 v7 v8 v9 v10 v11) (v60 v62 : FVec Ideal S512x32 .f32) (v74 : FVec Ideal S512x32x32 .f32)
    (v75 : FVec Ideal S1x32x32 .f32)
    (T TT : Fin 512 → Fin 32 → ℝ) (D : Fin 512 → Fin 32 → Fin 32 → ℝ) (L : Fin 32 → Fin 32 → ℝ)
    (h60 : ∀ (r : Fin 512) (i : Fin 32), v60 (ix2 r i) = ((T r i : ℝ) : EReal))
    (h62 : ∀ (r : Fin 512) (i : Fin 32), v62 (ix2 r i) = ((TT r i : ℝ) : EReal))
    (h74 : ∀ (r : Fin 512) (i j : Fin 32), v74 (ix3 r i j) = ((D r i j : ℝ) : EReal))
    (h75 : ∀ (i j : Fin 32), v75 (ix3 (0 : Fin 1) i j) = ((L i j : ℝ) : EReal)) (r : Fin 512) (i : Fin 32) :
    k0_pay1 (F := Ideal) v60 v62 v8 v9 v11 v1 v74 v75 (ix2 r i)
      = ((W.lm i * W.bus i * TT r i + W.ld i * T r i + ∑ j : Fin 32, L i j * Real.sin (D r i j) - pb r i : ℝ) : EReal) := by
  unfold k0_pay1
  have hs : multiReduction (F := Ideal) .add [2] S512x32
      (mulf (broadcastTo S512x32x32 v75 broadcasts_S1x32x32_S512x32x32) (sin v74)) 0x00000000#32
      reduces_S512x32x32_S512x32 (.inl rfl) rfl (ix2 r i)
      = ((∑ j : Fin 32, L i j * Real.sin (D r i j) : ℝ) : EReal) := by
    refine (laneSum_apply _ _ _ r i).trans ?_
    rw [coe_sum]
    refine Finset.sum_congr rfl fun j _ => ?_
    rw [mulf_apply, bcast_1bc, sin_apply, h75, h74, Ideal.sin_coe, ← EReal.coe_mul]
  simp only [subf_apply, addf_apply, mulf_apply]
  rw [hs, broadcastTo_1b_ab_apply, broadcastTo_1b_ab_apply, mulf_apply, h.lm, h.bus, h.ld, h60, h62, h.p]
  simp only [← EReal.coe_mul, ← EReal.coe_add, ← EReal.coe_sub]

/-- The third stored value at `(r, j)`: the residual. -/
theorem phys_row (h : BlockReal W tb pb v0 v1 v2 v3 v4 v5 v6 v7 v8 v9 v10 v11) (r : Fin 512) (j : Fin 32) :
    k0_pay1 (F := Ideal) (k0_pay12 (k0_pay8 v0 v2 v3 v4 v5) (k0_pay9 v0 v2 v3 v4) v6)
      (k0_pay13 (k0_pay5 v0 v2 v3) (k0_pay6 v4) (k0_pay7 v0 v2 v3 v4 v5) (k0_pay8 v0 v2 v3 v4 v5) (k0_pay9 v0 v2 v3 v4) v6)
      v8 v9 v11 v1 (k0_pay14 (k0_pay7 v0 v2 v3 v4 v5) v6 v7) (k0_pay15 v10) (ix2 r j)
      = ((W.phys (tb r) (pb r j) j : ℝ) : EReal) :=
  pay1_apply h _ _ _ _ (fun r i => W.outT (tb r) i) (fun r i => W.outTT (tb r) i)
    (fun r i j => W.out (tb r) i - W.out (tb r) j) (fun i j => W.lb i j)
    (outT_row h)
    (pay13_apply h _ _ _ _ _ (fun r k => W.d2h0 (tb r) k) (fun k k' => W.W1 k k') (fun r k => W.h1 (tb r) k)
      (fun r k => W.s1 (tb r) k) (fun r k => W.dz1 (tb r) k)
      (pay5_apply h) (pay6_apply h) (pay7_apply h) (pay8_apply h) (pay9_apply h))
    (pay14_apply h) (pay15_apply h) r j

end Cert.KernelIdeal.Row

end
-- ==== Proof.KernelArray.lean ====
/-
  The kernel's three result arrays, whole.

  Grid point `t` stages rows `512 t … 512 t + 511` of the time and power arrays and the parameters whole (the three
  bias vectors through a host reshape to one row), and writes back rows `512 t …` of the three results; the 128
  points cover all 65536 rows. Row by row the written values are the network's output, its time derivative and
  the residual of that row's sample, so each result array is the corresponding function of the argument arrays.
-/
import proofs.«127954_j13030930776227_1_alg».proof.Proof.Gen.KernelIdeal.Value
import proofs.«127954_j13030930776227_1_alg».proof.Proof.KernelRow
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Arr

open Cert.KernelIdeal Cert.KernelIdeal.Gen Cert.KernelIdeal.Value Cert.KernelIdeal.Row Idealize.ShloMosaic Idealize.ShloMosaic.TcCoe Idealize.ShloMosaic.ValueIdx Idealize.SL.Sem Cert.Pinn
open Idealize.ShloMosaic.Pipeline (Dat)

variable (m : (ℓ : Loc nD τ sig) → Buf (Elt Ideal) ℓ) (ρ : Dev nD → PrngReg)

/-- The parameters' real parts, read off the memory the program is launched from. -/
abbrev wts (c : Dev nD) : Wts :=
  wtsOf (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11))
/-- The samples' times. -/
abbrev times (c : Dev nD) : Fin 65536 → ℝ := timeOf (m ((c : Thread nD τ).loc main_arg0))
/-- The injected powers. -/
abbrev pows (c : Dev nD) : Fin 65536 → Fin 32 → ℝ := powOf (m ((c : Thread nD τ).loc main_arg1))

/-- Every entry of every argument array is a real number. -/
structure ArgsReal (c : Dev nD) : Prop where
  a0 : AllReal (m ((c : Thread nD τ).loc main_arg0))
  a1 : AllReal (m ((c : Thread nD τ).loc main_arg1))
  a2 : AllReal (m ((c : Thread nD τ).loc main_arg2))
  a3 : AllReal (m ((c : Thread nD τ).loc main_arg3))
  a4 : AllReal (m ((c : Thread nD τ).loc main_arg4))
  a5 : AllReal (m ((c : Thread nD τ).loc main_arg5))
  a6 : AllReal (m ((c : Thread nD τ).loc main_arg6))
  a7 : AllReal (m ((c : Thread nD τ).loc main_arg7))
  a8 : AllReal (m ((c : Thread nD τ).loc main_arg8))
  a9 : AllReal (m ((c : Thread nD τ).loc main_arg9))
  a10 : AllReal (m ((c : Thread nD τ).loc main_arg10))
  a11 : AllReal (m ((c : Thread nD τ).loc main_arg11))

/-- The zero offsets of a whole staging buffer's rectangle. -/
private theorem hz : (![0, 0] : Fin 2 → Nat) = fun _ => 0 := funext fun a => by fin_cases a <;> rfl

/-- The index maps over the grid: the time, power and result windows are at block (t, 0), the parameters' at (0, 0). -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

/-- A grid point is one of 128. -/
private theorem point_lt (t : Fin cfg0.N) : t.val < 128 := lt_of_lt_of_eq t.isLt N_0

/-- Row r of point t's block is row 512 t + r of the array. -/
private def row (t : Fin cfg0.N) (r : Fin 512) : Fin 65536 :=
  ⟨512 * t.val + r.val, by have := point_lt t; have := r.isLt; omega⟩

/-! ## Each window's block as entries of the argument arrays -/

/-- The time block at a point: rows 512 t … of the time array. -/
private theorem blk0 (c : Dev nD) (t : Fin cfg0.N) (r : Fin 512) :
    (iblk m c 0 t : Vec Ideal S512x1 .f32) (ix2 r (0 : Fin 1)) = (m ((c : Thread nD τ).loc main_arg0) : S65536x1.Idx → EReal) (ix2 (row t r) (0 : Fin 1)) := by
  obtain ⟨h0, h1, h2, h3, h4, h5, h6, h7, h8, h9, h10, h11, h12, h13, h14⟩ := idx_facts t
  unfold iblk
  rw [View.read_apply]
  show V m c main_arg0 _ = _
  rw [V_main_arg0]
  congr 1
  funext a
  apply Fin.ext
  match a with
  | ⟨0, _⟩ => show win0_0.index t (0 : Fin 2) * 512 + 1 * r.val = 512 * t.val + r.val; rw [h0.1]; omega
  | ⟨1, _⟩ => show win0_0.index t (1 : Fin 2) * 1 + 1 * 0 = 0; rw [h0.2]

/-- The power block at a point: rows 512 t … of the power array. -/
private theorem blk1 (c : Dev nD) (t : Fin cfg0.N) (r : Fin 512) (j : Fin 32) :
    (iblk m c 1 t : Vec Ideal S512x32 .f32) (ix2 r j) = (m ((c : Thread nD τ).loc main_arg1) : S65536x32.Idx → EReal) (ix2 (row t r) j) := by
  obtain ⟨h0, h1, h2, h3, h4, h5, h6, h7, h8, h9, h10, h11, h12, h13, h14⟩ := idx_facts t
  unfold iblk
  rw [View.read_apply]
  show V m c main_arg1 _ = _
  rw [V_main_arg1]
  congr 1
  funext a
  apply Fin.ext
  match a with
  | ⟨0, _⟩ => show win0_1.index t (0 : Fin 2) * 512 + 1 * r.val = 512 * t.val + r.val; rw [h1.1]; omega
  | ⟨1, _⟩ => show win0_1.index t (1 : Fin 2) * 32 + 1 * j.val = j.val; rw [h1.2]; omega

/-- The first layer's weights, staged whole. -/
private theorem blk2 (c : Dev nD) (t : Fin cfg0.N) (a : Fin 1) (b : Fin 256) :
    (iblk m c 2 t : Vec Ideal S1x256 .f32) (ix2 a b) = (m ((c : Thread nD τ).loc main_arg2) : S1x256.Idx → EReal) (ix2 a b) := by
  obtain ⟨h0, h1, h2, h3, h4, h5, h6, h7, h8, h9, h10, h11, h12, h13, h14⟩ := idx_facts t
  unfold iblk
  rw [View.read_apply]
  show V m c main_arg2 _ = _
  rw [V_main_arg2]
  congr 1
  funext d
  apply Fin.ext
  match d with
  | ⟨0, _⟩ => show win0_2.index t (0 : Fin 2) * 1 + 1 * a.val = a.val; rw [h2.1]; omega
  | ⟨1, _⟩ => show win0_2.index t (1 : Fin 2) * 256 + 1 * b.val = b.val; rw [h2.2]; omega

/-- The first layer's bias as one row: the host's reshape of the bias vector. -/
private theorem host_v0 (c : Dev nD) (k : Fin 256) :
    (V m c main_v0 : S1x256.Idx → EReal) (ix2 (0 : Fin 1) k) = (m ((c : Thread nD τ).loc main_arg3) : S256.Idx → EReal) (ix1 k) := by
  have e : (V m c main_v0 : S1x256.Idx → EReal) = shapeCast S1x256 (m ((c : Thread nD τ).loc main_arg3)) shapeCasts_S256_S1x256 := by
    dsimp only [Gen.V, Gen.hostOps0]; after_results; rfl
  rw [e]
  exact shapeCast_a_1a_apply _ _ _ _

private theorem blk3 (c : Dev nD) (t : Fin cfg0.N) (k : Fin 256) :
    (iblk m c 3 t : Vec Ideal S1x256 .f32) (ix2 (0 : Fin 1) k) = (m ((c : Thread nD τ).loc main_arg3) : S256.Idx → EReal) (ix1 k) := by
  obtain ⟨h0, h1, h2, h3, h4, h5, h6, h7, h8, h9, h10, h11, h12, h13, h14⟩ := idx_facts t
  rw [← host_v0 m c k]
  unfold iblk
  rw [View.read_apply]
  show V m c main_v0 _ = _
  congr 1
  funext d
  apply Fin.ext
  match d with
  | ⟨0, _⟩ => show win0_3.index t (0 : Fin 2) * 1 + 1 * 0 = 0; rw [h3.1]
  | ⟨1, _⟩ => show win0_3.index t (1 : Fin 2) * 256 + 1 * k.val = k.val; rw [h3.2]; omega

/-- The second layer's weights, staged whole. -/
private theorem blk4 (c : Dev nD) (t : Fin cfg0.N) (a : Fin 256) (b : Fin 256) :
    (iblk m c 4 t : Vec Ideal S256x256 .f32) (ix2 a b) = (m ((c : Thread nD τ).loc main_arg4) : S256x256.Idx → EReal) (ix2 a b) := by
  obtain ⟨h0, h1, h2, h3, h4, h5, h6, h7, h8, h9, h10, h11, h12, h13, h14⟩ := idx_facts t
  unfold iblk
  rw [View.read_apply]
  show V m c main_arg4 _ = _
  rw [V_main_arg4]
  congr 1
  funext d
  apply Fin.ext
  match d with
  | ⟨0, _⟩ => show win0_4.index t (0 : Fin 2) * 256 + 1 * a.val = a.val; rw [h4.1]; omega
  | ⟨1, _⟩ => show win0_4.index t (1 : Fin 2) * 256 + 1 * b.val = b.val; rw [h4.2]; omega

/-- The second layer's bias as one row. -/
private theorem host_v1 (c : Dev nD) (k : Fin 256) :
    (V m c main_v1 : S1x256.Idx → EReal) (ix2 (0 : Fin 1) k) = (m ((c : Thread nD τ).loc main_arg5) : S256.Idx → EReal) (ix1 k) := by
  have e : (V m c main_v1 : S1x256.Idx → EReal) = shapeCast S1x256 (m ((c : Thread nD τ).loc main_arg5)) shapeCasts_S256_S1x256 := by
    dsimp only [Gen.V, Gen.hostOps0]; after_results; rfl
  rw [e]
  exact shapeCast_a_1a_apply _ _ _ _

private theorem blk5 (c : Dev nD) (t : Fin cfg0.N) (k : Fin 256) :
    (iblk m c 5 t : Vec Ideal S1x256 .f32) (ix2 (0 : Fin 1) k) = (m ((c : Thread nD τ).loc main_arg5) : S256.Idx → EReal) (ix1 k) := by
  obtain ⟨h0, h1, h2, h3, h4, h5, h6, h7, h8, h9, h10, h11, h12, h13, h14⟩ := idx_facts t
  rw [← host_v1 m c k]
  unfold iblk
  rw [View.read_apply]
  show V m c main_v1 _ = _
  congr 1
  funext d
  apply Fin.ext
  match d with
  | ⟨0, _⟩ => show win0_5.index t (0 : Fin 2) * 1 + 1 * 0 = 0; rw [h5.1]
  | ⟨1, _⟩ => show win0_5.index t (1 : Fin 2) * 256 + 1 * k.val = k.val; rw [h5.2]; omega

/-- The output layer's weights, staged whole. -/
private theorem blk6 (c : Dev nD) (t : Fin cfg0.N) (a : Fin 256) (b : Fin 32) :
    (iblk m c 6 t : Vec Ideal S256x32 .f32) (ix2 a b) = (m ((c : Thread nD τ).loc main_arg6) : S256x32.Idx → EReal) (ix2 a b) := by
  obtain ⟨h0, h1, h2, h3, h4, h5, h6, h7, h8, h9, h10, h11, h12, h13, h14⟩ := idx_facts t
  unfold iblk
  rw [View.read_apply]
  show V m c main_arg6 _ = _
  rw [V_main_arg6]
  congr 1
  funext d
  apply Fin.ext
  match d with
  | ⟨0, _⟩ => show win0_6.index t (0 : Fin 2) * 256 + 1 * a.val = a.val; rw [h6.1]; omega
  | ⟨1, _⟩ => show win0_6.index t (1 : Fin 2) * 32 + 1 * b.val = b.val; rw [h6.2]; omega

/-- The output layer's bias as one row. -/
private theorem host_v2 (c : Dev nD) (k : Fin 32) :
    (V m c main_v2 : S1x32.Idx → EReal) (ix2 (0 : Fin 1) k) = (m ((c : Thread nD τ).loc main_arg7) : S32.Idx → EReal) (ix1 k) := by
  have e : (V m c main_v2 : S1x32.Idx → EReal) = shapeCast S1x32 (m ((c : Thread nD τ).loc main_arg7)) shapeCasts_S32_S1x32 := by
    dsimp only [Gen.V, Gen.hostOps0]; after_results; rfl
  rw [e]
  exact shapeCast_a_1a_apply _ _ _ _

private theorem blk7 (c : Dev nD) (t : Fin cfg0.N) (k : Fin 32) :
    (iblk m c 7 t : Vec Ideal S1x32 .f32) (ix2 (0 : Fin 1) k) = (m ((c : Thread nD τ).loc main_arg7) : S32.Idx → EReal) (ix1 k) := by
  obtain ⟨h0, h1, h2, h3, h4, h5, h6, h7, h8, h9, h10, h11, h12, h13, h14⟩ := idx_facts t
  rw [← host_v2 m c k]
  unfold iblk
  rw [View.read_apply]
  show V m c main_v2 _ = _
  congr 1
  funext d
  apply Fin.ext
  match d with
  | ⟨0, _⟩ => show win0_7.index t (0 : Fin 2) * 1 + 1 * 0 = 0; rw [h7.1]
  | ⟨1, _⟩ => show win0_7.index t (1 : Fin 2) * 32 + 1 * k.val = k.val; rw [h7.2]; omega

/-- The inertia coefficients, staged whole. -/
private theorem blk8 (c : Dev nD) (t : Fin cfg0.N) (a : Fin 1) (b : Fin 32) :
    (iblk m c 8 t : Vec Ideal S1x32 .f32) (ix2 a b) = (m ((c : Thread nD τ).loc main_arg8) : S1x32.Idx → EReal) (ix2 a b) := by
  obtain ⟨h0, h1, h2, h3, h4, h5, h6, h7, h8, h9, h10, h11, h12, h13, h14⟩ := idx_facts t
  unfold iblk
  rw [View.read_apply]
  show V m c main_arg8 _ = _
  rw [V_main_arg8]
  congr 1
  funext d
  apply Fin.ext
  match d with
  | ⟨0, _⟩ => show win0_8.index t (0 : Fin 2) * 1 + 1 * a.val = a.val; rw [h8.1]; omega
  | ⟨1, _⟩ => show win0_8.index t (1 : Fin 2) * 32 + 1 * b.val = b.val; rw [h8.2]; omega

/-- The damping coefficients, staged whole. -/
private theorem blk9 (c : Dev nD) (t : Fin cfg0.N) (a : Fin 1) (b : Fin 32) :
    (iblk m c 9 t : Vec Ideal S1x32 .f32) (ix2 a b) = (m ((c : Thread nD τ).loc main_arg9) : S1x32.Idx → EReal) (ix2 a b) := by
  obtain ⟨h0, h1, h2, h3, h4, h5, h6, h7, h8, h9, h10, h11, h12, h13, h14⟩ := idx_facts t
  unfold iblk
  rw [View.read_apply]
  show V m c main_arg9 _ = _
  rw [V_main_arg9]
  congr 1
  funext d
  apply Fin.ext
  match d with
  | ⟨0, _⟩ => show win0_9.index t (0 : Fin 2) * 1 + 1 * a.val = a.val; rw [h9.1]; omega
  | ⟨1, _⟩ => show win0_9.index t (1 : Fin 2) * 32 + 1 * b.val = b.val; rw [h9.2]; omega

/-- The coupling matrix, staged whole. -/
private theorem blk10 (c : Dev nD) (t : Fin cfg0.N) (a : Fin 32) (b : Fin 32) :
    (iblk m c 10 t : Vec Ideal S32x32 .f32) (ix2 a b) = (m ((c : Thread nD τ).loc main_arg10) : S32x32.Idx → EReal) (ix2 a b) := by
  obtain ⟨h0, h1, h2, h3, h4, h5, h6, h7, h8, h9, h10, h11, h12, h13, h14⟩ := idx_facts t
  unfold iblk
  rw [View.read_apply]
  show V m c main_arg10 _ = _
  rw [V_main_arg10]
  congr 1
  funext d
  apply Fin.ext
  match d with
  | ⟨0, _⟩ => show win0_10.index t (0 : Fin 2) * 32 + 1 * a.val = a.val; rw [h10.1]; omega
  | ⟨1, _⟩ => show win0_10.index t (1 : Fin 2) * 32 + 1 * b.val = b.val; rw [h10.2]; omega

/-- The bus coefficients, staged whole. -/
private theorem blk11 (c : Dev nD) (t : Fin cfg0.N) (a : Fin 1) (b : Fin 32) :
    (iblk m c 11 t : Vec Ideal S1x32 .f32) (ix2 a b) = (m ((c : Thread nD τ).loc main_arg11) : S1x32.Idx → EReal) (ix2 a b) := by
  obtain ⟨h0, h1, h2, h3, h4, h5, h6, h7, h8, h9, h10, h11, h12, h13, h14⟩ := idx_facts t
  unfold iblk
  rw [View.read_apply]
  show V m c main_arg11 _ = _
  rw [V_main_arg11]
  congr 1
  funext d
  apply Fin.ext
  match d with
  | ⟨0, _⟩ => show win0_11.index t (0 : Fin 2) * 1 + 1 * a.val = a.val; rw [h11.1]; omega
  | ⟨1, _⟩ => show win0_11.index t (1 : Fin 2) * 32 + 1 * b.val = b.val; rw [h11.2]; omega

/-! ## The loads of a grid point are real -/

/-- Blocks whose entries are the given reals, loaded whole, are a real block. -/
private theorem blockReal_of {W : Wts} {tb : Fin 512 → ℝ} {pb : Fin 512 → Fin 32 → ℝ}
    {x0 : Vec Ideal S512x1 .f32} {x1 : Vec Ideal S512x32 .f32} {x2 x3 : Vec Ideal S1x256 .f32}
    {x4 : Vec Ideal S256x256 .f32} {x5 : Vec Ideal S1x256 .f32} {x6 : Vec Ideal S256x32 .f32}
    {x7 x8 x9 : Vec Ideal S1x32 .f32} {x10 : Vec Ideal S32x32 .f32} {x11 : Vec Ideal S1x32 .f32}
    (e0 : ∀ r : Fin 512, x0 (ix2 r (0 : Fin 1)) = ((tb r : ℝ) : EReal))
    (e1 : ∀ (r : Fin 512) (j : Fin 32), x1 (ix2 r j) = ((pb r j : ℝ) : EReal))
    (e2 : ∀ k : Fin 256, x2 (ix2 (0 : Fin 1) k) = ((W.w0 k : ℝ) : EReal))
    (e3 : ∀ k : Fin 256, x3 (ix2 (0 : Fin 1) k) = ((W.b0 k : ℝ) : EReal))
    (e4 : ∀ k k' : Fin 256, x4 (ix2 k k') = ((W.W1 k k' : ℝ) : EReal))
    (e5 : ∀ k : Fin 256, x5 (ix2 (0 : Fin 1) k) = ((W.b1 k : ℝ) : EReal))
    (e6 : ∀ (k : Fin 256) (j : Fin 32), x6 (ix2 k j) = ((W.W2 k j : ℝ) : EReal))
    (e7 : ∀ j : Fin 32, x7 (ix2 (0 : Fin 1) j) = ((W.b2 j : ℝ) : EReal))
    (e8 : ∀ i : Fin 32, x8 (ix2 (0 : Fin 1) i) = ((W.lm i : ℝ) : EReal))
    (e9 : ∀ i : Fin 32, x9 (ix2 (0 : Fin 1) i) = ((W.ld i : ℝ) : EReal))
    (e10 : ∀ i j : Fin 32, x10 (ix2 i j) = ((W.lb i j : ℝ) : EReal))
    (e11 : ∀ i : Fin 32, x11 (ix2 (0 : Fin 1) i) = ((W.bus i : ℝ) : EReal)) :
    BlockReal W tb pb (View.ld x0 r0_0) (View.ld x1 r0_5) (View.ld x2 r0_1) (View.ld x3 r0_1) (View.ld x4 r0_2) (View.ld x5 r0_1)
      (View.ld x6 r0_3) (View.ld x7 r0_4) (View.ld x8 r0_4) (View.ld x9 r0_4) (View.ld x10 r0_6) (View.ld x11 r0_4) := by
  rw [View.ld_unit_zero (S := S512x1) hz, View.ld_unit_zero (S := S512x32) hz, View.ld_unit_zero (S := S1x256) hz,
    View.ld_unit_zero (S := S1x256) hz, View.ld_unit_zero (S := S256x256) hz, View.ld_unit_zero (S := S1x256) hz,
    View.ld_unit_zero (S := S256x32) hz, View.ld_unit_zero (S := S1x32) hz, View.ld_unit_zero (S := S1x32) hz,
    View.ld_unit_zero (S := S1x32) hz, View.ld_unit_zero (S := S32x32) hz, View.ld_unit_zero (S := S1x32) hz]
  exact ⟨e0, e1, e2, e3, e4, e5, e6, e7, e8, e9, e10, e11⟩

/-- At a grid point the loaded blocks are the real parts of the argument arrays' entries: rows 512 t … of the
    times and powers, the parameters whole. -/
private theorem blockReal (hr : ∀ c : Dev nD, ArgsReal m c) (c : Dev nD) (t : Fin cfg0.N) :
    BlockReal (wts m c) (fun r => times m c (row t r)) (fun r j => pows m c (row t r) j)
      (View.ld (iblk m c 0 t) r0_0) (View.ld (iblk m c 1 t) r0_5) (View.ld (iblk m c 2 t) r0_1) (View.ld (iblk m c 3 t) r0_1) (View.ld (iblk m c 4 t) r0_2) (View.ld (iblk m c 5 t) r0_1) (View.ld (iblk m c 6 t) r0_3) (View.ld (iblk m c 7 t) r0_4) (View.ld (iblk m c 8 t) r0_4) (View.ld (iblk m c 9 t) r0_4) (View.ld (iblk m c 10 t) r0_6) (View.ld (iblk m c 11 t) r0_4) :=
  blockReal_of
    (fun r => (blk0 m c t r).trans ((hr c).a0 _))
    (fun r j => (blk1 m c t r j).trans ((hr c).a1 _))
    (fun k => (blk2 m c t 0 k).trans ((hr c).a2 _))
    (fun k => (blk3 m c t k).trans ((hr c).a3 _))
    (fun k k' => (blk4 m c t k k').trans ((hr c).a4 _))
    (fun k => (blk5 m c t k).trans ((hr c).a5 _))
    (fun k j => (blk6 m c t k j).trans ((hr c).a6 _))
    (fun j => (blk7 m c t j).trans ((hr c).a7 _))
    (fun i => (blk8 m c t 0 i).trans ((hr c).a8 _))
    (fun i => (blk9 m c t 0 i).trans ((hr c).a9 _))
    (fun i j => (blk10 m c t i j).trans ((hr c).a10 _))
    (fun i => (blk11 m c t 0 i).trans ((hr c).a11 _))

/-! ## From blocks to the arrays -/

/-- Entry (r, j) of point t's block of this result sits at row 512 t + r of the array. -/
private theorem emb12 (t : Fin cfg0.N) (r : Fin 512) (j : Fin 32) :
    (((cfg0.win 12).blk t).view.emb (ix2 r j) : S65536x32.Idx) = ix2 (row t r) j := by
  obtain ⟨h0, h1, h2, h3, h4, h5, h6, h7, h8, h9, h10, h11, h12, h13, h14⟩ := idx_facts t
  funext a
  apply Fin.ext
  match a with
  | ⟨0, _⟩ => show win0_12.index t (0 : Fin 2) * 512 + 1 * r.val = 512 * t.val + r.val; rw [h12.1]; omega
  | ⟨1, _⟩ => show win0_12.index t (1 : Fin 2) * 32 + 1 * j.val = j.val; rw [h12.2]; omega

/-- Entry (r, j) of point t's block of this result sits at row 512 t + r of the array. -/
private theorem emb13 (t : Fin cfg0.N) (r : Fin 512) (j : Fin 32) :
    (((cfg0.win 13).blk t).view.emb (ix2 r j) : S65536x32.Idx) = ix2 (row t r) j := by
  obtain ⟨h0, h1, h2, h3, h4, h5, h6, h7, h8, h9, h10, h11, h12, h13, h14⟩ := idx_facts t
  funext a
  apply Fin.ext
  match a with
  | ⟨0, _⟩ => show win0_13.index t (0 : Fin 2) * 512 + 1 * r.val = 512 * t.val + r.val; rw [h13.1]; omega
  | ⟨1, _⟩ => show win0_13.index t (1 : Fin 2) * 32 + 1 * j.val = j.val; rw [h13.2]; omega

/-- Entry (r, j) of point t's block of this result sits at row 512 t + r of the array. -/
private theorem emb14 (t : Fin cfg0.N) (r : Fin 512) (j : Fin 32) :
    (((cfg0.win 14).blk t).view.emb (ix2 r j) : S65536x32.Idx) = ix2 (row t r) j := by
  obtain ⟨h0, h1, h2, h3, h4, h5, h6, h7, h8, h9, h10, h11, h12, h13, h14⟩ := idx_facts t
  funext a
  apply Fin.ext
  match a with
  | ⟨0, _⟩ => show win0_14.index t (0 : Fin 2) * 512 + 1 * r.val = 512 * t.val + r.val; rw [h14.1]; omega
  | ⟨1, _⟩ => show win0_14.index t (1 : Fin 2) * 32 + 1 * j.val = j.val; rw [h14.2]; omega

/-- What point t writes back to this result is rows 512 t … of the whole-array function. -/
private theorem flushed12_eq (hr : ∀ c : Dev nD, ArgsReal m c) (c : Dev nD) (t : Fin cfg0.N) :
    (dats m 0 c).flushed 12 t = ((cfg0.win 12).blk t).view.read (Elt Ideal) (GOut (wts m c) (times m c)) := by
  rw [Value.flushed12]
  unfold Gen.out0_12
  rw [View.canon_unit_zero hz]
  funext y
  obtain ⟨r, j, rfl⟩ : ∃ (r : Fin 512) (j : Fin 32), y = ix2 r j := ⟨y 0, y 1, eq_ix2 y⟩
  refine (out_row (blockReal m hr c t) r j).trans ?_
  rw [View.read_apply, emb12 t r j, GOut_ix2]
  rfl

/-- What point t writes back to this result is rows 512 t … of the whole-array function. -/
private theorem flushed13_eq (hr : ∀ c : Dev nD, ArgsReal m c) (c : Dev nD) (t : Fin cfg0.N) :
    (dats m 0 c).flushed 13 t = ((cfg0.win 13).blk t).view.read (Elt Ideal) (GOutT (wts m c) (times m c)) := by
  rw [Value.flushed13]
  unfold Gen.out0_13
  rw [View.canon_unit_zero hz]
  funext y
  obtain ⟨r, j, rfl⟩ : ∃ (r : Fin 512) (j : Fin 32), y = ix2 r j := ⟨y 0, y 1, eq_ix2 y⟩
  refine (outT_row (blockReal m hr c t) r j).trans ?_
  rw [View.read_apply, emb13 t r j, GOutT_ix2]
  rfl

/-- What point t writes back to this result is rows 512 t … of the whole-array function. -/
private theorem flushed14_eq (hr : ∀ c : Dev nD, ArgsReal m c) (c : Dev nD) (t : Fin cfg0.N) :
    (dats m 0 c).flushed 14 t = ((cfg0.win 14).blk t).view.read (Elt Ideal) (GPhys (wts m c) (times m c) (pows m c)) := by
  rw [Value.flushed14]
  unfold Gen.out0_14
  rw [View.canon_unit_zero hz]
  funext y
  obtain ⟨r, j, rfl⟩ : ∃ (r : Fin 512) (j : Fin 32), y = ix2 r j := ⟨y 0, y 1, eq_ix2 y⟩
  refine (phys_row (blockReal m hr c t) r j).trans ?_
  rw [View.read_apply, emb14 t r j, GPhys_ix2]
  rfl

/-- An index of the array is in point t's block iff each coordinate is in the block's range on its axis. -/
private theorem mem_blk12 (t : Fin cfg0.N) (i : S65536x32.Idx) :
    i ∈ ((cfg0.win 12).blk t).view.set ↔ ∀ a : Fin 2, win0_12.index t a * S512x32.size a ≤ (i a).val ∧ (i a).val < win0_12.index t a * S512x32.size a + S512x32.size a := by
  show i ∈ ((View.whole main_v3_0).slice (win0_12.rect t)).set ↔ _
  rw [View.set_slice_whole, Rect.mem_set_unit]
  exact Iff.rfl

/-- Row n of the array lies in the block of point n / 512. -/
private theorem cover12 (i : S65536x32.Idx) :
    ∃ t : Fin cfg0.N, (cfg0.win 12).flush t = true ∧ i ∈ ((cfg0.win 12).blk t).view.set := by
  have hi0 : (i 0).val < 65536 := (i 0).isLt
  have hi1 : (i 1).val < 32 := (i 1).isLt
  have hN : cfg0.N = 128 := N_0
  have hq : (i 0).val / 512 < cfg0.N := by rw [hN]; omega
  obtain ⟨h0, h1, h2, h3, h4, h5, h6, h7, h8, h9, h10, h11, h12, h13, h14⟩ := idx_facts ⟨(i 0).val / 512, hq⟩
  refine ⟨⟨(i 0).val / 512, hq⟩, flush0_12 _, ?_⟩
  rw [mem_blk12]
  intro a
  match a with
  | ⟨0, _⟩ =>
    show win0_12.index ⟨(i 0).val / 512, hq⟩ (0 : Fin 2) * 512 ≤ (i 0).val ∧ (i 0).val < win0_12.index ⟨(i 0).val / 512, hq⟩ (0 : Fin 2) * 512 + 512
    rw [h12.1]; show (i 0).val / 512 * 512 ≤ (i 0).val ∧ (i 0).val < (i 0).val / 512 * 512 + 512; omega
  | ⟨1, _⟩ =>
    show win0_12.index ⟨(i 0).val / 512, hq⟩ (1 : Fin 2) * 32 ≤ (i 1).val ∧ (i 1).val < win0_12.index ⟨(i 0).val / 512, hq⟩ (1 : Fin 2) * 32 + 32
    rw [h12.2]; omega

/-- So this result array ends holding the whole-array function. -/
private theorem final12 (hr : ∀ c : Dev nD, ArgsReal m c) (c : Dev nD) :
    (dats m 0 c).arrAt 12 cfg0.N = GOut (wts m c) (times m c) :=
  (dats m 0 c).arrAt_eq_of_cover 12 (GOut (wts m c) (times m c)) (fun t _ => flushed12_eq m hr c t) cover12

/-- An index of the array is in point t's block iff each coordinate is in the block's range on its axis. -/
private theorem mem_blk13 (t : Fin cfg0.N) (i : S65536x32.Idx) :
    i ∈ ((cfg0.win 13).blk t).view.set ↔ ∀ a : Fin 2, win0_13.index t a * S512x32.size a ≤ (i a).val ∧ (i a).val < win0_13.index t a * S512x32.size a + S512x32.size a := by
  show i ∈ ((View.whole main_v3_1).slice (win0_13.rect t)).set ↔ _
  rw [View.set_slice_whole, Rect.mem_set_unit]
  exact Iff.rfl

/-- Row n of the array lies in the block of point n / 512. -/
private theorem cover13 (i : S65536x32.Idx) :
    ∃ t : Fin cfg0.N, (cfg0.win 13).flush t = true ∧ i ∈ ((cfg0.win 13).blk t).view.set := by
  have hi0 : (i 0).val < 65536 := (i 0).isLt
  have hi1 : (i 1).val < 32 := (i 1).isLt
  have hN : cfg0.N = 128 := N_0
  have hq : (i 0).val / 512 < cfg0.N := by rw [hN]; omega
  obtain ⟨h0, h1, h2, h3, h4, h5, h6, h7, h8, h9, h10, h11, h12, h13, h14⟩ := idx_facts ⟨(i 0).val / 512, hq⟩
  refine ⟨⟨(i 0).val / 512, hq⟩, flush0_13 _, ?_⟩
  rw [mem_blk13]
  intro a
  match a with
  | ⟨0, _⟩ =>
    show win0_13.index ⟨(i 0).val / 512, hq⟩ (0 : Fin 2) * 512 ≤ (i 0).val ∧ (i 0).val < win0_13.index ⟨(i 0).val / 512, hq⟩ (0 : Fin 2) * 512 + 512
    rw [h13.1]; show (i 0).val / 512 * 512 ≤ (i 0).val ∧ (i 0).val < (i 0).val / 512 * 512 + 512; omega
  | ⟨1, _⟩ =>
    show win0_13.index ⟨(i 0).val / 512, hq⟩ (1 : Fin 2) * 32 ≤ (i 1).val ∧ (i 1).val < win0_13.index ⟨(i 0).val / 512, hq⟩ (1 : Fin 2) * 32 + 32
    rw [h13.2]; omega

/-- So this result array ends holding the whole-array function. -/
private theorem final13 (hr : ∀ c : Dev nD, ArgsReal m c) (c : Dev nD) :
    (dats m 0 c).arrAt 13 cfg0.N = GOutT (wts m c) (times m c) :=
  (dats m 0 c).arrAt_eq_of_cover 13 (GOutT (wts m c) (times m c)) (fun t _ => flushed13_eq m hr c t) cover13

/-- An index of the array is in point t's block iff each coordinate is in the block's range on its axis. -/
private theorem mem_blk14 (t : Fin cfg0.N) (i : S65536x32.Idx) :
    i ∈ ((cfg0.win 14).blk t).view.set ↔ ∀ a : Fin 2, win0_14.index t a * S512x32.size a ≤ (i a).val ∧ (i a).val < win0_14.index t a * S512x32.size a + S512x32.size a := by
  show i ∈ ((View.whole main_v3_2).slice (win0_14.rect t)).set ↔ _
  rw [View.set_slice_whole, Rect.mem_set_unit]
  exact Iff.rfl

/-- Row n of the array lies in the block of point n / 512. -/
private theorem cover14 (i : S65536x32.Idx) :
    ∃ t : Fin cfg0.N, (cfg0.win 14).flush t = true ∧ i ∈ ((cfg0.win 14).blk t).view.set := by
  have hi0 : (i 0).val < 65536 := (i 0).isLt
  have hi1 : (i 1).val < 32 := (i 1).isLt
  have hN : cfg0.N = 128 := N_0
  have hq : (i 0).val / 512 < cfg0.N := by rw [hN]; omega
  obtain ⟨h0, h1, h2, h3, h4, h5, h6, h7, h8, h9, h10, h11, h12, h13, h14⟩ := idx_facts ⟨(i 0).val / 512, hq⟩
  refine ⟨⟨(i 0).val / 512, hq⟩, flush0_14 _, ?_⟩
  rw [mem_blk14]
  intro a
  match a with
  | ⟨0, _⟩ =>
    show win0_14.index ⟨(i 0).val / 512, hq⟩ (0 : Fin 2) * 512 ≤ (i 0).val ∧ (i 0).val < win0_14.index ⟨(i 0).val / 512, hq⟩ (0 : Fin 2) * 512 + 512
    rw [h14.1]; show (i 0).val / 512 * 512 ≤ (i 0).val ∧ (i 0).val < (i 0).val / 512 * 512 + 512; omega
  | ⟨1, _⟩ =>
    show win0_14.index ⟨(i 0).val / 512, hq⟩ (1 : Fin 2) * 32 ≤ (i 1).val ∧ (i 1).val < win0_14.index ⟨(i 0).val / 512, hq⟩ (1 : Fin 2) * 32 + 32
    rw [h14.2]; omega

/-- So this result array ends holding the whole-array function. -/
private theorem final14 (hr : ∀ c : Dev nD, ArgsReal m c) (c : Dev nD) :
    (dats m 0 c).arrAt 14 cfg0.N = GPhys (wts m c) (times m c) (pows m c) :=
  (dats m 0 c).arrAt_eq_of_cover 14 (GPhys (wts m c) (times m c) (pows m c)) (fun t _ => flushed14_eq m hr c t) cover14

/-! ## The run -/

/-- The kernel's run on real inputs: the three results are the network's output, its time derivative and the residual,
    sample by sample, and the arguments are unchanged. -/
theorem run (hr : ∀ c : Dev nD, ArgsReal m c) :
    θ_run defs (onTc (τ := τ) (main (F := Ideal))) ⟨m, fun _ => 0, ρ⟩ fun r => ∀ c : Dev nD,
      r.2.mem ((c : Thread nD τ).loc main_v3_0) = GOut (wts m c) (times m c)
      ∧ r.2.mem ((c : Thread nD τ).loc main_v3_1) = GOutT (wts m c) (times m c)
      ∧ r.2.mem ((c : Thread nD τ).loc main_v3_2) = GPhys (wts m c) (times m c) (pows m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m hr c), (h c).2.1.trans (final13 m hr c),
      (h c).2.2.1.trans (final14 m hr c), (h c).2.2.2⟩) (Value.run_blocks m ρ)

end Cert.KernelIdeal.Arr

end
-- ==== Proof.RefLayer0.lean ====
/-
  The reference's first hidden layer at one sample.

  At index `(n, k)` the reference's hidden value, its two copies of the first time derivative
  (one per level of forward differentiation: `(g + g * h) * (1 - h)` with `g = ((2 * 1) / 20) * w0 k`)
  and its second derivative are the coercions of `h0`, `dh0`, `dh0` and `d2h0` of that sample, when the
  inputs are real: `(1 + h) * (1 - h) = 1 - h ^ 2`, and the second derivative's two products sum to `-2 * h * s0 * g ^ 2`.
-/
import proofs.«127954_j13030930776227_1_alg».proof.Proof.Gen.ReferenceIdeal.Read
import proofs.«127954_j13030930776227_1_alg».proof.Proof.Spec
import Idealize.ShloMosaic.Lib.ValueIdx
import Idealize.ShloMosaic.Lib.Pipeline.Value
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.TcCoe Idealize.ShloMosaic.ValueIdx Cert.Pinn

/-- The reference's argument arrays are real: times and powers sample by sample, the parameters entry by entry. -/
structure ArrReal (W : Wts) (tr : Fin 65536 → ℝ) (pr : Fin 65536 → Fin 32 → ℝ)
    (x0 : FVec Ideal S65536x1 .f32) (x1 : FVec Ideal S65536x32 .f32) (x2 : FVec Ideal S1x256 .f32)
    (x3 : FVec Ideal S256 .f32) (x4 : FVec Ideal S256x256 .f32) (x5 : FVec Ideal S256 .f32)
    (x6 : FVec Ideal S256x32 .f32) (x7 : FVec Ideal S32 .f32) (x8 x9 : FVec Ideal S1x32 .f32)
    (x10 : FVec Ideal S32x32 .f32) (x11 : FVec Ideal S1x32 .f32) : Prop where
  t : ∀ n : Fin 65536, x0 (ix2 n (0 : Fin 1)) = ((tr n : ℝ) : EReal)
  p : ∀ (n : Fin 65536) (j : Fin 32), x1 (ix2 n j) = ((pr n j : ℝ) : EReal)
  w0 : ∀ k : Fin 256, x2 (ix2 (0 : Fin 1) k) = ((W.w0 k : ℝ) : EReal)
  b0 : ∀ k : Fin 256, x3 (ix1 k) = ((W.b0 k : ℝ) : EReal)
  W1 : ∀ k k' : Fin 256, x4 (ix2 k k') = ((W.W1 k k' : ℝ) : EReal)
  b1 : ∀ k : Fin 256, x5 (ix1 k) = ((W.b1 k : ℝ) : EReal)
  W2 : ∀ (k : Fin 256) (j : Fin 32), x6 (ix2 k j) = ((W.W2 k j : ℝ) : EReal)
  b2 : ∀ j : Fin 32, x7 (ix1 j) = ((W.b2 j : ℝ) : EReal)
  lm : ∀ i : Fin 32, x8 (ix2 (0 : Fin 1) i) = ((W.lm i : ℝ) : EReal)
  ld : ∀ i : Fin 32, x9 (ix2 (0 : Fin 1) i) = ((W.ld i : ℝ) : EReal)
  lb : ∀ i j : Fin 32, x10 (ix2 i j) = ((W.lb i j : ℝ) : EReal)
  bus : ∀ i : Fin 32, x11 (ix2 (0 : Fin 1) i) = ((W.bus i : ℝ) : EReal)

variable {W : Wts} {tr : Fin 65536 → ℝ} {pr : Fin 65536 → Fin 32 → ℝ}
  {x0 : FVec Ideal S65536x1 .f32} {x1 : FVec Ideal S65536x32 .f32} {x2 : FVec Ideal S1x256 .f32}
  {x3 : FVec Ideal S256 .f32} {x4 : FVec Ideal S256x256 .f32} {x5 : FVec Ideal S256 .f32}
  {x6 : FVec Ideal S256x32 .f32} {x7 : FVec Ideal S32 .f32} {x8 x9 : FVec Ideal S1x32 .f32}
  {x10 : FVec Ideal S32x32 .f32} {x11 : FVec Ideal S1x32 .f32}

/-! ## The normalised input and the two copies of its constant derivative -/

/-- `(2 * t) / 20 - 1` is the normalised input `t / 10 - 1`. -/
private theorem v10_eq (h : ArrReal W tr pr x0 x1 x2 x3 x4 x5 x6 x7 x8 x9 x10 x11) (n : Fin 65536) :
    val_main_v10 (F := Ideal) x0 (ix1 n) = ((Wts.x (tr n) : ℝ) : EReal) := by
  have e0 : idx_main_v0 (ix1 n) = ix2 n (0 : Fin 1) :=
    funext fun a => Fin.ext (by match a with | ⟨0, _⟩ => exact Nat.div_one _ | ⟨1, _⟩ => rfl)
  simp only [val_main_v10_apply, val_main_v6_apply, val_main_v2_apply, val_main_v1_apply, val_main_cst_apply,
    val_main_v0_apply, val_main_v5_apply, val_main_cst_4_apply, val_main_v9_apply, val_main_cst_7_apply, e0, h.t,
    Ideal.subf_def, Ideal.hostDivf_def, Ideal.mulf_def, Ideal.ofBits_def, ofBits_two, ofBits_twenty, ofBits_one]
  rw [← EReal.coe_mul, div_twenty, ← EReal.coe_sub]
  congr 1
  unfold Wts.x
  ring

/-- The scalar `(2 * 1) / 20` is `1 / 10`, the first copy. -/
private theorem v7_eq (i : S_.Idx) : val_main_v7 (F := Ideal) i = (((1 : ℝ) / 10 : ℝ) : EReal) := by
  simp only [val_main_v7_apply, val_main_v3_apply, val_main_cst_0_apply, val_main_cst_1_apply, val_main_cst_5_apply,
    Ideal.hostDivf_def, Ideal.mulf_def, Ideal.ofBits_def, ofBits_two, ofBits_one, ofBits_twenty]
  rw [← EReal.coe_mul, div_twenty]
  congr 1
  norm_num

/-- The scalar `(2 * 1) / 20` is `1 / 10`, the second copy. -/
private theorem v8_eq (i : S_.Idx) : val_main_v8 (F := Ideal) i = (((1 : ℝ) / 10 : ℝ) : EReal) := by
  simp only [val_main_v8_apply, val_main_v4_apply, val_main_cst_2_apply, val_main_cst_3_apply, val_main_cst_6_apply,
    Ideal.hostDivf_def, Ideal.mulf_def, Ideal.ofBits_def, ofBits_two, ofBits_one, ofBits_twenty]
  rw [← EReal.coe_mul, div_twenty]
  congr 1
  norm_num

/-- The first-layer input weights as a vector. -/
private theorem v11_eq (h : ArrReal W tr pr x0 x1 x2 x3 x4 x5 x6 x7 x8 x9 x10 x11) (k : Fin 256) :
    val_main_v11 (F := Ideal) x2 (ix1 k) = ((W.w0 k : ℝ) : EReal) := by
  have e : idx_main_v11 (ix1 k) = ix2 (0 : Fin 1) k :=
    funext fun a => Fin.ext (by match a with | ⟨0, _⟩ => rfl | ⟨1, _⟩ => exact Nat.mod_eq_of_lt k.isLt)
  rw [val_main_v11_apply, e, h.w0]

/-- `(1 / 10) * w0 k` is `g k`, the first copy. -/
private theorem v18_eq (h : ArrReal W tr pr x0 x1 x2 x3 x4 x5 x6 x7 x8 x9 x10 x11) (k : Fin 256) :
    val_main_v18 (F := Ideal) x2 (ix1 k) = ((W.g k : ℝ) : EReal) := by
  rw [val_main_v18_apply, val_main_v17_apply, v7_eq, v11_eq h, Ideal.mulf_def, ← EReal.coe_mul]
  rfl

/-- `(1 / 10) * w0 k` is `g k`, the second copy. -/
private theorem v20_eq (h : ArrReal W tr pr x0 x1 x2 x3 x4 x5 x6 x7 x8 x9 x10 x11) (k : Fin 256) :
    val_main_v20 (F := Ideal) x2 (ix1 k) = ((W.g k : ℝ) : EReal) := by
  rw [val_main_v20_apply, val_main_v19_apply, v8_eq, v11_eq h, Ideal.mulf_def, ← EReal.coe_mul]
  rfl

/-! ## The hidden value -/

/-- The first hidden layer. -/
theorem ref_h0 (h : ArrReal W tr pr x0 x1 x2 x3 x4 x5 x6 x7 x8 x9 x10 x11) (n : Fin 65536) (k : Fin 256) :
    val_main_v24 (F := Ideal) x0 x2 x3 (ix2 n k) = ((W.h0 (tr n) k : ℝ) : EReal) := by
  have e14 : idx_main_v13 (idx_main_v14 (ix2 n k)) = ix1 n :=
    funext fun a => Fin.ext (by match a with | ⟨0, _⟩ => rfl)
  have e15 : idx_main_v12 (idx_main_v15 (ix2 n k)) = ix1 k :=
    funext fun a => Fin.ext (by match a with | ⟨0, _⟩ => rfl)
  have e22 : idx_main_v21 (idx_main_v22 (ix2 n k)) = ix1 k :=
    funext fun a => Fin.ext (by match a with | ⟨0, _⟩ => rfl)
  rw [val_main_v24_apply, val_main_v23_apply, val_main_v16_apply, val_main_v14_apply, val_main_v13_apply, e14,
    val_main_v15_apply, val_main_v12_apply, e15, val_main_v22_apply, val_main_v21_apply, e22, v10_eq h, v11_eq h,
    h.b0, Ideal.hostUnary_tanh_def, Ideal.addf_def, Ideal.mulf_def, ← EReal.coe_mul, ← EReal.coe_add, Ideal.tanh_coe]
  rfl

/-! ## The broadcasts of `g` over the samples, and of the constant one -/

/-- The first copy of `g`, broadcast for the product with the hidden value. -/
private theorem v26_eq (h : ArrReal W tr pr x0 x1 x2 x3 x4 x5 x6 x7 x8 x9 x10 x11) (n : Fin 65536) (k : Fin 256) :
    val_main_v26 (F := Ideal) x2 (ix2 n k) = ((W.g k : ℝ) : EReal) := by
  have e : idx_main_v25 (idx_main_v26 (ix2 n k)) = ix1 k :=
    funext fun a => Fin.ext (by match a with | ⟨0, _⟩ => rfl)
  rw [val_main_v26_apply, val_main_v25_apply, e, v18_eq h]

/-- The first copy of `g`, broadcast as a summand. -/
private theorem v29_eq (h : ArrReal W tr pr x0 x1 x2 x3 x4 x5 x6 x7 x8 x9 x10 x11) (n : Fin 65536) (k : Fin 256) :
    val_main_v29 (F := Ideal) x2 (ix2 n k) = ((W.g k : ℝ) : EReal) := by
  have e : idx_main_v28 (idx_main_v29 (ix2 n k)) = ix1 k :=
    funext fun a => Fin.ext (by match a with | ⟨0, _⟩ => rfl)
  rw [val_main_v29_apply, val_main_v28_apply, e, v18_eq h]

/-- The second copy of `g`, broadcast for the product with the hidden value. -/
private theorem v35_eq (h : ArrReal W tr pr x0 x1 x2 x3 x4 x5 x6 x7 x8 x9 x10 x11) (n : Fin 65536) (k : Fin 256) :
    val_main_v35 (F := Ideal) x2 (ix2 n k) = ((W.g k : ℝ) : EReal) := by
  have e : idx_main_v34 (idx_main_v35 (ix2 n k)) = ix1 k :=
    funext fun a => Fin.ext (by match a with | ⟨0, _⟩ => rfl)
  rw [val_main_v35_apply, val_main_v34_apply, e, v20_eq h]

/-- The second copy of `g`, broadcast for the product with the first derivative. -/
private theorem v38_eq (h : ArrReal W tr pr x0 x1 x2 x3 x4 x5 x6 x7 x8 x9 x10 x11) (n : Fin 65536) (k : Fin 256) :
    val_main_v38 (F := Ideal) x2 (ix2 n k) = ((W.g k : ℝ) : EReal) := by
  have e : idx_main_v37 (idx_main_v38 (ix2 n k)) = ix1 k :=
    funext fun a => Fin.ext (by match a with | ⟨0, _⟩ => rfl)
  rw [val_main_v38_apply, val_main_v37_apply, e, v20_eq h]

/-- The second copy of `g`, broadcast as a summand. -/
private theorem v41_eq (h : ArrReal W tr pr x0 x1 x2 x3 x4 x5 x6 x7 x8 x9 x10 x11) (n : Fin 65536) (k : Fin 256) :
    val_main_v41 (F := Ideal) x2 (ix2 n k) = ((W.g k : ℝ) : EReal) := by
  have e : idx_main_v40 (idx_main_v41 (ix2 n k)) = ix1 k :=
    funext fun a => Fin.ext (by match a with | ⟨0, _⟩ => rfl)
  rw [val_main_v41_apply, val_main_v40_apply, e, v20_eq h]

/-- The constant one of the inner differentiation. -/
private theorem v31_eq (i : S65536x256.Idx) : val_main_v31 (F := Ideal) i = ((1 : ℝ) : EReal) := by
  rw [val_main_v31_apply, val_main_cst_8_apply, Ideal.ofBits_def, ofBits_one]

/-- The constant one of the outer differentiation. -/
private theorem v43_eq (i : S65536x256.Idx) : val_main_v43 (F := Ideal) i = ((1 : ℝ) : EReal) := by
  rw [val_main_v43_apply, val_main_cst_9_apply, Ideal.ofBits_def, ofBits_one]

/-! ## The first derivative, inner copy: `(g + g * h) * (1 - h) = (1 - h * h) * g` -/

private theorem v30_eq (h : ArrReal W tr pr x0 x1 x2 x3 x4 x5 x6 x7 x8 x9 x10 x11) (n : Fin 65536) (k : Fin 256) :
    val_main_v30 (F := Ideal) x0 x2 x3 (ix2 n k) = ((W.g k + W.g k * W.h0 (tr n) k : ℝ) : EReal) := by
  simp only [val_main_v30_apply, val_main_v27_apply, v29_eq h, v26_eq h, ref_h0 h, Ideal.addf_def, Ideal.mulf_def,
    ← EReal.coe_mul, ← EReal.coe_add]

private theorem v32_eq (h : ArrReal W tr pr x0 x1 x2 x3 x4 x5 x6 x7 x8 x9 x10 x11) (n : Fin 65536) (k : Fin 256) :
    val_main_v32 (F := Ideal) x0 x2 x3 (ix2 n k) = ((1 - W.h0 (tr n) k : ℝ) : EReal) := by
  simp only [val_main_v32_apply, v31_eq, ref_h0 h, Ideal.subf_def, ← EReal.coe_sub]

/-- Its time derivative, as the inner differentiation computes it. -/
theorem ref_dh0 (h : ArrReal W tr pr x0 x1 x2 x3 x4 x5 x6 x7 x8 x9 x10 x11) (n : Fin 65536) (k : Fin 256) :
    val_main_v33 (F := Ideal) x0 x2 x3 (ix2 n k) = ((W.dh0 (tr n) k : ℝ) : EReal) := by
  simp only [val_main_v33_apply, v30_eq h, v32_eq h, Ideal.mulf_def, ← EReal.coe_mul]
  congr 1
  unfold Wts.dh0 Wts.s0
  ring

/-! ## The first derivative, outer copy -/

private theorem v42_eq (h : ArrReal W tr pr x0 x1 x2 x3 x4 x5 x6 x7 x8 x9 x10 x11) (n : Fin 65536) (k : Fin 256) :
    val_main_v42 (F := Ideal) x0 x2 x3 (ix2 n k) = ((W.g k + W.g k * W.h0 (tr n) k : ℝ) : EReal) := by
  simp only [val_main_v42_apply, val_main_v36_apply, v41_eq h, v35_eq h, ref_h0 h, Ideal.addf_def, Ideal.mulf_def,
    ← EReal.coe_mul, ← EReal.coe_add]

private theorem v44_eq (h : ArrReal W tr pr x0 x1 x2 x3 x4 x5 x6 x7 x8 x9 x10 x11) (n : Fin 65536) (k : Fin 256) :
    val_main_v44 (F := Ideal) x0 x2 x3 (ix2 n k) = ((1 - W.h0 (tr n) k : ℝ) : EReal) := by
  simp only [val_main_v44_apply, v43_eq, ref_h0 h, Ideal.subf_def, ← EReal.coe_sub]

/-- Its time derivative, as the outer differentiation computes it. -/
theorem ref_dh0' (h : ArrReal W tr pr x0 x1 x2 x3 x4 x5 x6 x7 x8 x9 x10 x11) (n : Fin 65536) (k : Fin 256) :
    val_main_v46 (F := Ideal) x0 x2 x3 (ix2 n k) = ((W.dh0 (tr n) k : ℝ) : EReal) := by
  simp only [val_main_v46_apply, v42_eq h, v44_eq h, Ideal.mulf_def, ← EReal.coe_mul]
  congr 1
  unfold Wts.dh0 Wts.s0
  ring

/-! ## The second derivative: `g * dh0 * (1 - h) + (g + g * h) * (-dh0) = (-2 * h * (1 - h * h)) * (g * g)` -/

/-- Its second time derivative. -/
theorem ref_d2h0 (h : ArrReal W tr pr x0 x1 x2 x3 x4 x5 x6 x7 x8 x9 x10 x11) (n : Fin 65536) (k : Fin 256) :
    val_main_v49 (F := Ideal) x0 x2 x3 (ix2 n k) = ((W.d2h0 (tr n) k : ℝ) : EReal) := by
  simp only [val_main_v49_apply, val_main_v47_apply, val_main_v48_apply, val_main_v39_apply, val_main_v45_apply,
    v38_eq h, ref_dh0 h, v44_eq h, v42_eq h, Ideal.hostNegf_def, Ideal.negf_def, Ideal.addf_def, Ideal.mulf_def,
    ← EReal.coe_neg, ← EReal.coe_mul, ← EReal.coe_add]
  congr 1
  unfold Wts.d2h0 Wts.dh0 Wts.s0
  ring

end Cert.ReferenceIdeal.RefRow

end
-- ==== Proof.RefLayer1.lean ====
/-
  The reference's second hidden layer at one sample.

  A matrix product at `(n, k')` is the sum over `k` of the left operand at `(n, k)` times `W1 k k'`; with the
  first layer's four values real, the pre-activation and its derivatives are real sums, the hidden value is
  `h1`, and the derivative `(dz + dz * h) * (1 - h)` is `s1 * dz1`. The second derivative's two products,
  `(d2z + (d2z * h + dz * dh1)) * (1 - h)` and `(dz + dz * h) * (-dh1)`, sum to `-2 * h1 * s1 * dz1 ^ 2 + s1 * d2z1`.
-/
import proofs.«127954_j13030930776227_1_alg».proof.Proof.RefLayer0
import Idealize.ShloMosaic.Lib.ValueIdx
import Idealize.ShloMosaic.Lib.Pipeline.Value
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.TcCoe Idealize.ShloMosaic.ValueIdx Cert.Pinn

variable {W : Wts} {tr : Fin 65536 → ℝ} {pr : Fin 65536 → Fin 32 → ℝ}
  {x0 : FVec Ideal S65536x1 .f32} {x1 : FVec Ideal S65536x32 .f32} {x2 : FVec Ideal S1x256 .f32}
  {x3 : FVec Ideal S256 .f32} {x4 : FVec Ideal S256x256 .f32} {x5 : FVec Ideal S256 .f32}
  {x6 : FVec Ideal S256x32 .f32} {x7 : FVec Ideal S32 .f32} {x8 x9 : FVec Ideal S1x32 .f32}
  {x10 : FVec Ideal S32x32 .f32} {x11 : FVec Ideal S1x32 .f32}

/-! ## The real identities -/

/-- `(dz + dz * h) * (1 - h) = (1 - h * h) * dz`. -/
private theorem dh1_real (W : Wts) (t : ℝ) (k : Fin 256) :
    (W.dz1 t k + W.dz1 t k * W.h1 t k) * (1 - W.h1 t k) = W.dh1 t k := by
  unfold Wts.dh1 Wts.s1
  ring

/-- The two products of the second derivative sum to `-2 * h * s * dz ^ 2 + s * d2z`, with `s = 1 - h * h`. -/
private theorem d2h1_real (W : Wts) (t : ℝ) (k : Fin 256) :
    (W.d2z1 t k + (W.d2z1 t k * W.h1 t k + W.dz1 t k * W.dh1 t k)) * (1 - W.h1 t k)
      + (W.dz1 t k + W.dz1 t k * W.h1 t k) * (-W.dh1 t k) = W.d2h1 t k := by
  unfold Wts.d2h1 Wts.dh1 Wts.s1
  ring

/-! ## The four matrix products at `(n, k')`: sums over `k` of a first-layer value times `W1 k k'` -/

private theorem v50_eq (h : ArrReal W tr pr x0 x1 x2 x3 x4 x5 x6 x7 x8 x9 x10 x11) (n : Fin 65536) (k' : Fin 256) :
    val_main_v50 (F := Ideal) x0 x2 x3 x4 (ix2 n k') = ((∑ k : Fin 256, W.h0 (tr n) k * W.W1 k k' : ℝ) : EReal) := by
  rw [val_main_v50_apply]
  rw [coe_sum]
  refine Finset.sum_congr rfl fun k _ => ?_
  have e1 : lidx_main_v50 (ix2 n k') k = ix2 n k :=
    funext fun a => Fin.ext (by match a with | ⟨0, _⟩ => rfl | ⟨1, _⟩ => rfl)
  have e2 : ridx_main_v50 (ix2 n k') k = ix2 k k' :=
    funext fun a => Fin.ext (by match a with | ⟨0, _⟩ => rfl | ⟨1, _⟩ => rfl)
  rw [e1, e2, ref_h0 h n k, h.W1 k k', ← EReal.coe_mul]

private theorem v51_eq (h : ArrReal W tr pr x0 x1 x2 x3 x4 x5 x6 x7 x8 x9 x10 x11) (n : Fin 65536) (k' : Fin 256) :
    val_main_v51 (F := Ideal) x0 x2 x3 x4 (ix2 n k') = ((W.dz1 (tr n) k' : ℝ) : EReal) := by
  rw [val_main_v51_apply]
  unfold Wts.dz1
  rw [coe_sum]
  refine Finset.sum_congr rfl fun k _ => ?_
  have e1 : lidx_main_v51 (ix2 n k') k = ix2 n k :=
    funext fun a => Fin.ext (by match a with | ⟨0, _⟩ => rfl | ⟨1, _⟩ => rfl)
  have e2 : ridx_main_v51 (ix2 n k') k = ix2 k k' :=
    funext fun a => Fin.ext (by match a with | ⟨0, _⟩ => rfl | ⟨1, _⟩ => rfl)
  rw [e1, e2, ref_dh0 h n k, h.W1 k k', ← EReal.coe_mul]

private theorem v52_eq (h : ArrReal W tr pr x0 x1 x2 x3 x4 x5 x6 x7 x8 x9 x10 x11) (n : Fin 65536) (k' : Fin 256) :
    val_main_v52 (F := Ideal) x0 x2 x3 x4 (ix2 n k') = ((W.dz1 (tr n) k' : ℝ) : EReal) := by
  rw [val_main_v52_apply]
  unfold Wts.dz1
  rw [coe_sum]
  refine Finset.sum_congr rfl fun k _ => ?_
  have e1 : lidx_main_v52 (ix2 n k') k = ix2 n k :=
    funext fun a => Fin.ext (by match a with | ⟨0, _⟩ => rfl | ⟨1, _⟩ => rfl)
  have e2 : ridx_main_v52 (ix2 n k') k = ix2 k k' :=
    funext fun a => Fin.ext (by match a with | ⟨0, _⟩ => rfl | ⟨1, _⟩ => rfl)
  rw [e1, e2, ref_dh0' h n k, h.W1 k k', ← EReal.coe_mul]

private theorem v53_eq (h : ArrReal W tr pr x0 x1 x2 x3 x4 x5 x6 x7 x8 x9 x10 x11) (n : Fin 65536) (k' : Fin 256) :
    val_main_v53 (F := Ideal) x0 x2 x3 x4 (ix2 n k') = ((W.d2z1 (tr n) k' : ℝ) : EReal) := by
  rw [val_main_v53_apply]
  unfold Wts.d2z1
  rw [coe_sum]
  refine Finset.sum_congr rfl fun k _ => ?_
  have e1 : lidx_main_v53 (ix2 n k') k = ix2 n k :=
    funext fun a => Fin.ext (by match a with | ⟨0, _⟩ => rfl | ⟨1, _⟩ => rfl)
  have e2 : ridx_main_v53 (ix2 n k') k = ix2 k k' :=
    funext fun a => Fin.ext (by match a with | ⟨0, _⟩ => rfl | ⟨1, _⟩ => rfl)
  rw [e1, e2, ref_d2h0 h n k, h.W1 k k', ← EReal.coe_mul]

/-! ## The bias row, the constant one -/

private theorem v55_eq (h : ArrReal W tr pr x0 x1 x2 x3 x4 x5 x6 x7 x8 x9 x10 x11) (n : Fin 65536) (k' : Fin 256) :
    val_main_v55 (F := Ideal) x5 (ix2 n k') = ((W.b1 k' : ℝ) : EReal) := by
  rw [val_main_v55_apply, val_main_v54_apply]
  have e : idx_main_v54 (idx_main_v55 (ix2 n k')) = ix1 k' :=
    funext fun a => Fin.ext (by match a with | ⟨0, _⟩ => rfl)
  rw [e, h.b1 k']

private theorem v60_eq (n : Fin 65536) (k : Fin 256) :
    val_main_v60 (F := Ideal) (ix2 n k) = ((1 : ℝ) : EReal) := by
  rw [val_main_v60_apply, val_main_cst_10_apply, Ideal.ofBits_def, ofBits_one]

private theorem v69_eq (n : Fin 65536) (k : Fin 256) :
    val_main_v69 (F := Ideal) (ix2 n k) = ((1 : ℝ) : EReal) := by
  rw [val_main_v69_apply, val_main_cst_11_apply, Ideal.ofBits_def, ofBits_one]

/-! ## The hidden value -/

private theorem v56_eq (h : ArrReal W tr pr x0 x1 x2 x3 x4 x5 x6 x7 x8 x9 x10 x11) (n : Fin 65536) (k : Fin 256) :
    val_main_v56 (F := Ideal) x0 x2 x3 x4 x5 (ix2 n k) = ((∑ j : Fin 256, W.h0 (tr n) j * W.W1 j k + W.b1 k : ℝ) : EReal) := by
  rw [val_main_v56_apply, v50_eq h n k, v55_eq h n k, Ideal.addf_def, ← EReal.coe_add]

/-- The second hidden layer. -/
theorem ref_h1 (h : ArrReal W tr pr x0 x1 x2 x3 x4 x5 x6 x7 x8 x9 x10 x11) (n : Fin 65536) (k : Fin 256) :
    val_main_v57 (F := Ideal) x0 x2 x3 x4 x5 (ix2 n k) = ((W.h1 (tr n) k : ℝ) : EReal) := by
  rw [val_main_v57_apply, v56_eq h n k, Ideal.hostUnary_tanh_def, Ideal.tanh_coe]
  rfl

/-! ## The first derivative, inner copy: `(dz + dz * h) * (1 - h)` -/

private theorem v59_eq (h : ArrReal W tr pr x0 x1 x2 x3 x4 x5 x6 x7 x8 x9 x10 x11) (n : Fin 65536) (k : Fin 256) :
    val_main_v59 (F := Ideal) x0 x2 x3 x4 x5 (ix2 n k) = ((W.dz1 (tr n) k + W.dz1 (tr n) k * W.h1 (tr n) k : ℝ) : EReal) := by
  rw [val_main_v59_apply, val_main_v58_apply, v51_eq h n k, ref_h1 h n k, Ideal.mulf_def, Ideal.addf_def,
    ← EReal.coe_mul, ← EReal.coe_add]

private theorem v61_eq (h : ArrReal W tr pr x0 x1 x2 x3 x4 x5 x6 x7 x8 x9 x10 x11) (n : Fin 65536) (k : Fin 256) :
    val_main_v61 (F := Ideal) x0 x2 x3 x4 x5 (ix2 n k) = ((1 - W.h1 (tr n) k : ℝ) : EReal) := by
  rw [val_main_v61_apply, v60_eq n k, ref_h1 h n k, Ideal.subf_def, ← EReal.coe_sub]

private theorem v62_eq (h : ArrReal W tr pr x0 x1 x2 x3 x4 x5 x6 x7 x8 x9 x10 x11) (n : Fin 65536) (k : Fin 256) :
    val_main_v62 (F := Ideal) x0 x2 x3 x4 x5 (ix2 n k) = ((W.dh1 (tr n) k : ℝ) : EReal) := by
  rw [val_main_v62_apply, v59_eq h n k, v61_eq h n k, Ideal.mulf_def, ← EReal.coe_mul, dh1_real]

/-! ## The first derivative, outer copy -/

private theorem v67_eq (h : ArrReal W tr pr x0 x1 x2 x3 x4 x5 x6 x7 x8 x9 x10 x11) (n : Fin 65536) (k : Fin 256) :
    val_main_v67 (F := Ideal) x0 x2 x3 x4 x5 (ix2 n k) = ((W.dz1 (tr n) k + W.dz1 (tr n) k * W.h1 (tr n) k : ℝ) : EReal) := by
  rw [val_main_v67_apply, val_main_v63_apply, v52_eq h n k, ref_h1 h n k, Ideal.mulf_def, Ideal.addf_def,
    ← EReal.coe_mul, ← EReal.coe_add]

private theorem v70_eq (h : ArrReal W tr pr x0 x1 x2 x3 x4 x5 x6 x7 x8 x9 x10 x11) (n : Fin 65536) (k : Fin 256) :
    val_main_v70 (F := Ideal) x0 x2 x3 x4 x5 (ix2 n k) = ((1 - W.h1 (tr n) k : ℝ) : EReal) := by
  rw [val_main_v70_apply, v69_eq n k, ref_h1 h n k, Ideal.subf_def, ← EReal.coe_sub]

/-- Its time derivative, as the outer differentiation computes it (the one the output's derivative is made of). -/
theorem ref_dh1 (h : ArrReal W tr pr x0 x1 x2 x3 x4 x5 x6 x7 x8 x9 x10 x11) (n : Fin 65536) (k : Fin 256) :
    val_main_v72 (F := Ideal) x0 x2 x3 x4 x5 (ix2 n k) = ((W.dh1 (tr n) k : ℝ) : EReal) := by
  rw [val_main_v72_apply, v67_eq h n k, v70_eq h n k, Ideal.mulf_def, ← EReal.coe_mul, dh1_real]

/-! ## The second derivative: `(d2z + (d2z * h + dz * dh1)) * (1 - h) + (dz + dz * h) * (-dh1)` -/

private theorem v66_eq (h : ArrReal W tr pr x0 x1 x2 x3 x4 x5 x6 x7 x8 x9 x10 x11) (n : Fin 65536) (k : Fin 256) :
    val_main_v66 (F := Ideal) x0 x2 x3 x4 x5 (ix2 n k) = ((W.d2z1 (tr n) k * W.h1 (tr n) k + W.dz1 (tr n) k * W.dh1 (tr n) k : ℝ) : EReal) := by
  rw [val_main_v66_apply, val_main_v64_apply, val_main_v65_apply, v53_eq h n k, v52_eq h n k, ref_h1 h n k,
    v62_eq h n k]
  simp only [Ideal.mulf_def, Ideal.addf_def, ← EReal.coe_mul, ← EReal.coe_add]

private theorem v68_eq (h : ArrReal W tr pr x0 x1 x2 x3 x4 x5 x6 x7 x8 x9 x10 x11) (n : Fin 65536) (k : Fin 256) :
    val_main_v68 (F := Ideal) x0 x2 x3 x4 x5 (ix2 n k) = ((W.d2z1 (tr n) k + (W.d2z1 (tr n) k * W.h1 (tr n) k + W.dz1 (tr n) k * W.dh1 (tr n) k) : ℝ) : EReal) := by
  rw [val_main_v68_apply, v53_eq h n k, v66_eq h n k, Ideal.addf_def, ← EReal.coe_add]

private theorem v71_eq (h : ArrReal W tr pr x0 x1 x2 x3 x4 x5 x6 x7 x8 x9 x10 x11) (n : Fin 65536) (k : Fin 256) :
    val_main_v71 (F := Ideal) x0 x2 x3 x4 x5 (ix2 n k) = ((-W.dh1 (tr n) k : ℝ) : EReal) := by
  rw [val_main_v71_apply, v62_eq h n k, Ideal.hostNegf_def, Ideal.negf_def, ← EReal.coe_neg]

private theorem v73_eq (h : ArrReal W tr pr x0 x1 x2 x3 x4 x5 x6 x7 x8 x9 x10 x11) (n : Fin 65536) (k : Fin 256) :
    val_main_v73 (F := Ideal) x0 x2 x3 x4 x5 (ix2 n k) = (((W.d2z1 (tr n) k + (W.d2z1 (tr n) k * W.h1 (tr n) k + W.dz1 (tr n) k * W.dh1 (tr n) k)) * (1 - W.h1 (tr n) k) : ℝ) : EReal) := by
  rw [val_main_v73_apply, v68_eq h n k, v70_eq h n k, Ideal.mulf_def, ← EReal.coe_mul]

private theorem v74_eq (h : ArrReal W tr pr x0 x1 x2 x3 x4 x5 x6 x7 x8 x9 x10 x11) (n : Fin 65536) (k : Fin 256) :
    val_main_v74 (F := Ideal) x0 x2 x3 x4 x5 (ix2 n k) = (((W.dz1 (tr n) k + W.dz1 (tr n) k * W.h1 (tr n) k) * (-W.dh1 (tr n) k) : ℝ) : EReal) := by
  rw [val_main_v74_apply, v67_eq h n k, v71_eq h n k, Ideal.mulf_def, ← EReal.coe_mul]

/-- Its second time derivative. -/
theorem ref_d2h1 (h : ArrReal W tr pr x0 x1 x2 x3 x4 x5 x6 x7 x8 x9 x10 x11) (n : Fin 65536) (k : Fin 256) :
    val_main_v75 (F := Ideal) x0 x2 x3 x4 x5 (ix2 n k) = ((W.d2h1 (tr n) k : ℝ) : EReal) := by
  rw [val_main_v75_apply, v73_eq h n k, v74_eq h n k, Ideal.addf_def, ← EReal.coe_add, d2h1_real]

end Cert.ReferenceIdeal.RefRow

end
-- ==== Proof.RefOut.lean ====
/-
  The reference's three results at one sample.

  The output and its two derivatives are the second layer's values carried through `W2`; the coupling term at
  `(n, i)` is the sum over `j` of `lb i j * sin (out i - out j)` starting from zero; the residual adds the
  inertia and damping terms and subtracts the injected power.
-/
import proofs.«127954_j13030930776227_1_alg».proof.Proof.RefLayer1
import Idealize.ShloMosaic.Lib.ValueIdx
import Idealize.ShloMosaic.Lib.Pipeline.Value
import Idealize.ShloMosaic.PureOps.Ideal.Laws

noncomputable section

namespace Cert.ReferenceIdeal.RefRow

open Cert.ReferenceIdeal Cert.ReferenceIdeal.Gen Cert.ReferenceIdeal.Read Idealize.ShloMosaic Idealize.ShloMosaic.TcCoe Idealize.ShloMosaic.ValueIdx Cert.Pinn

variable {W : Wts} {tr : Fin 65536 → ℝ} {pr : Fin 65536 → Fin 32 → ℝ}
  {x0 : FVec Ideal S65536x1 .f32} {x1 : FVec Ideal S65536x32 .f32} {x2 : FVec Ideal S1x256 .f32}
  {x3 : FVec Ideal S256 .f32} {x4 : FVec Ideal S256x256 .f32} {x5 : FVec Ideal S256 .f32}
  {x6 : FVec Ideal S256x32 .f32} {x7 : FVec Ideal S32 .f32} {x8 x9 : FVec Ideal S1x32 .f32}
  {x10 : FVec Ideal S32x32 .f32} {x11 : FVec Ideal S1x32 .f32}

/-- The index a matrix product with W2 reads on the left, and on the right. -/
private theorem lidx76 (n : Fin 65536) (j : Fin 32) (k : Fin 256) : lidx_main_v76 (ix2 n j) k = ix2 n k :=
  funext fun a => Fin.ext (by match a with | ⟨0, _⟩ => rfl | ⟨1, _⟩ => rfl)
private theorem ridx76 (n : Fin 65536) (j : Fin 32) (k : Fin 256) : ridx_main_v76 (ix2 n j) k = ix2 k j :=
  funext fun a => Fin.ext (by match a with | ⟨0, _⟩ => rfl | ⟨1, _⟩ => rfl)
private theorem lidx78 (n : Fin 65536) (j : Fin 32) (k : Fin 256) : lidx_main_v78 (ix2 n j) k = ix2 n k :=
  funext fun a => Fin.ext (by match a with | ⟨0, _⟩ => rfl | ⟨1, _⟩ => rfl)
private theorem ridx78 (n : Fin 65536) (j : Fin 32) (k : Fin 256) : ridx_main_v78 (ix2 n j) k = ix2 k j :=
  funext fun a => Fin.ext (by match a with | ⟨0, _⟩ => rfl | ⟨1, _⟩ => rfl)
private theorem lidx79 (n : Fin 65536) (j : Fin 32) (k : Fin 256) : lidx_main_v79 (ix2 n j) k = ix2 n k :=
  funext fun a => Fin.ext (by match a with | ⟨0, _⟩ => rfl | ⟨1, _⟩ => rfl)
private theorem ridx79 (n : Fin 65536) (j : Fin 32) (k : Fin 256) : ridx_main_v79 (ix2 n j) k = ix2 k j :=
  funext fun a => Fin.ext (by match a with | ⟨0, _⟩ => rfl | ⟨1, _⟩ => rfl)

/-- The second layer's values carried through W2, before the bias. -/
private theorem ref_v76 (h : ArrReal W tr pr x0 x1 x2 x3 x4 x5 x6 x7 x8 x9 x10 x11) (n : Fin 65536) (j : Fin 32) :
    val_main_v76 (F := Ideal) x0 x2 x3 x4 x5 x6 (ix2 n j)
      = ((∑ k : Fin 256, W.h1 (tr n) k * W.W2 k j : ℝ) : EReal) := by
  rw [val_main_v76_apply, coe_sum]
  refine Finset.sum_congr rfl fun k _ => ?_
  rw [lidx76, ridx76, ref_h1 h, h.W2, ← EReal.coe_mul]

/-- The output. -/
theorem ref_out (h : ArrReal W tr pr x0 x1 x2 x3 x4 x5 x6 x7 x8 x9 x10 x11) (n : Fin 65536) (j : Fin 32) :
    val_main_v82 (F := Ideal) x0 x2 x3 x4 x5 x6 x7 (ix2 n j) = ((W.out (tr n) j : ℝ) : EReal) := by
  have e : idx_main_v80 (idx_main_v81 (ix2 n j)) = ix1 j :=
    funext fun a => Fin.ext (by match a with | ⟨0, _⟩ => rfl)
  rw [val_main_v82_apply, val_main_v81_apply, val_main_v80_apply, ref_v76 h, e, h.b2, Ideal.addf_def,
    ← EReal.coe_add]
  rfl

/-- The output's time derivative. -/
theorem ref_outT (h : ArrReal W tr pr x0 x1 x2 x3 x4 x5 x6 x7 x8 x9 x10 x11) (n : Fin 65536) (j : Fin 32) :
    val_main_v78 (F := Ideal) x0 x2 x3 x4 x5 x6 (ix2 n j) = ((W.outT (tr n) j : ℝ) : EReal) := by
  unfold Wts.outT
  rw [val_main_v78_apply, coe_sum]
  refine Finset.sum_congr rfl fun k _ => ?_
  rw [lidx78, ridx78, ref_dh1 h, h.W2, ← EReal.coe_mul]

/-- The output's second time derivative. -/
private theorem ref_outTT (h : ArrReal W tr pr x0 x1 x2 x3 x4 x5 x6 x7 x8 x9 x10 x11) (n : Fin 65536) (j : Fin 32) :
    val_main_v79 (F := Ideal) x0 x2 x3 x4 x5 x6 (ix2 n j) = ((W.outTT (tr n) j : ℝ) : EReal) := by
  unfold Wts.outTT
  rw [val_main_v79_apply, coe_sum]
  refine Finset.sum_congr rfl fun k _ => ?_
  rw [lidx79, ridx79, ref_d2h1 h, h.W2, ← EReal.coe_mul]

/-- The difference of two outputs of one sample: the row copy minus the column copy. -/
private theorem ref_v87 (h : ArrReal W tr pr x0 x1 x2 x3 x4 x5 x6 x7 x8 x9 x10 x11) (n : Fin 65536) (i j : Fin 32) :
    val_main_v87 (F := Ideal) x0 x2 x3 x4 x5 x6 x7 (ix3 n i j)
      = ((W.out (tr n) i - W.out (tr n) j : ℝ) : EReal) := by
  have e1 : idx_main_v83 (idx_main_v85 (ix3 n i j)) = ix2 n i :=
    funext fun a => Fin.ext (by match a with | ⟨0, _⟩ => rfl | ⟨1, _⟩ => rfl)
  have e2 : idx_main_v84 (idx_main_v86 (ix3 n i j)) = ix2 n j :=
    funext fun a => Fin.ext (by match a with | ⟨0, _⟩ => rfl | ⟨1, _⟩ => rfl)
  rw [val_main_v87_apply, val_main_v85_apply, val_main_v83_apply, val_main_v86_apply, val_main_v84_apply,
    e1, e2, ref_out h, ref_out h, Ideal.subf_def, ← EReal.coe_sub]

/-- Its sine. -/
private theorem ref_v88 (h : ArrReal W tr pr x0 x1 x2 x3 x4 x5 x6 x7 x8 x9 x10 x11) (n : Fin 65536) (i j : Fin 32) :
    val_main_v88 (F := Ideal) x0 x2 x3 x4 x5 x6 x7 (ix3 n i j)
      = ((Real.sin (W.out (tr n) i - W.out (tr n) j) : ℝ) : EReal) := by
  rw [val_main_v88_apply, ref_v87 h, Ideal.hostUnary_sin_def, Ideal.sin_coe]

/-- One term of the coupling sum. -/
private theorem ref_v91 (h : ArrReal W tr pr x0 x1 x2 x3 x4 x5 x6 x7 x8 x9 x10 x11) (n : Fin 65536) (i j : Fin 32) :
    val_main_v91 (F := Ideal) x0 x2 x3 x4 x5 x6 x7 x10 (ix3 n i j)
      = ((W.lb i j * Real.sin (W.out (tr n) i - W.out (tr n) j) : ℝ) : EReal) := by
  have e : idx_main_v89 (idx_main_v90 (ix3 n i j)) = ix2 i j :=
    funext fun a => Fin.ext (by match a with | ⟨0, _⟩ => rfl | ⟨1, _⟩ => rfl)
  rw [val_main_v91_apply, val_main_v90_apply, val_main_v89_apply, e, h.lb, ref_v88 h, Ideal.mulf_def,
    ← EReal.coe_mul]

/-- The coupling term: zero plus the sum over the second bus. -/
private theorem ref_v92 (h : ArrReal W tr pr x0 x1 x2 x3 x4 x5 x6 x7 x8 x9 x10 x11) (n : Fin 65536) (i : Fin 32) :
    val_main_v92 (F := Ideal) x0 x2 x3 x4 x5 x6 x7 x10 (ix2 n i) = ((W.conn (tr n) i : ℝ) : EReal) := by
  have e : ∀ k : Fin 32, idx_main_v92 (ix2 n i) k = ix3 n i k := fun k =>
    funext fun a => Fin.ext (by match a with | ⟨0, _⟩ => rfl | ⟨1, _⟩ => rfl | ⟨2, _⟩ => rfl)
  have hs : (∑ k : Fin 32, val_main_v91 (F := Ideal) x0 x2 x3 x4 x5 x6 x7 x10 (idx_main_v92 (ix2 n i) k))
      = ((W.conn (tr n) i : ℝ) : EReal) := by
    unfold Wts.conn
    rw [coe_sum]
    refine Finset.sum_congr rfl fun k _ => ?_
    rw [e k, ref_v91 h]
  rw [val_main_v92_apply, val_main_cst_12_apply, Ideal.ofBits_def, Cert.Pinn.ofBits_zero, hs, ← EReal.coe_add,
    zero_add]

/-- Inertia times the bus constant. -/
private theorem ref_v93 (h : ArrReal W tr pr x0 x1 x2 x3 x4 x5 x6 x7 x8 x9 x10 x11) (i : Fin 32) :
    val_main_v93 (F := Ideal) x8 x11 (ix2 (0 : Fin 1) i) = ((W.lm i * W.bus i : ℝ) : EReal) := by
  rw [val_main_v93_apply, h.lm, h.bus, Ideal.mulf_def, ← EReal.coe_mul]

/-- The inertia term. -/
private theorem ref_v95 (h : ArrReal W tr pr x0 x1 x2 x3 x4 x5 x6 x7 x8 x9 x10 x11) (n : Fin 65536) (j : Fin 32) :
    val_main_v95 (F := Ideal) x0 x2 x3 x4 x5 x6 x8 x11 (ix2 n j)
      = ((W.lm j * W.bus j * W.outTT (tr n) j : ℝ) : EReal) := by
  have e : idx_main_v94 (ix2 n j) = ix2 (0 : Fin 1) j :=
    funext fun a => Fin.ext (by match a with | ⟨0, _⟩ => rfl | ⟨1, _⟩ => rfl)
  rw [val_main_v95_apply, val_main_v94_apply, e, ref_v93 h, ref_outTT h, Ideal.mulf_def, ← EReal.coe_mul]

/-- The damping term. -/
private theorem ref_v97 (h : ArrReal W tr pr x0 x1 x2 x3 x4 x5 x6 x7 x8 x9 x10 x11) (n : Fin 65536) (j : Fin 32) :
    val_main_v97 (F := Ideal) x0 x2 x3 x4 x5 x6 x9 (ix2 n j) = ((W.ld j * W.outT (tr n) j : ℝ) : EReal) := by
  have e : idx_main_v96 (ix2 n j) = ix2 (0 : Fin 1) j :=
    funext fun a => Fin.ext (by match a with | ⟨0, _⟩ => rfl | ⟨1, _⟩ => rfl)
  rw [val_main_v97_apply, val_main_v96_apply, e, h.ld, ref_outT h, Ideal.mulf_def, ← EReal.coe_mul]

/-- The residual. -/
theorem ref_phys (h : ArrReal W tr pr x0 x1 x2 x3 x4 x5 x6 x7 x8 x9 x10 x11) (n : Fin 65536) (j : Fin 32) :
    val_main_v100 (F := Ideal) x0 x1 x2 x3 x4 x5 x6 x7 x8 x9 x10 x11 (ix2 n j) = ((W.phys (tr n) (pr n j) j : ℝ) : EReal) := by
  rw [val_main_v100_apply, val_main_v99_apply, val_main_v98_apply, ref_v95 h, ref_v97 h, ref_v92 h, h.p,
    Ideal.addf_def, Ideal.addf_def, Ideal.subf_def, ← EReal.coe_add, ← EReal.coe_add, ← EReal.coe_sub]
  rfl

end Cert.ReferenceIdeal.RefRow

end
-- ==== Proof.Finite.lean ====
/-
  Finite inputs are real.

  The precondition says of each argument array that every entry's absolute value is below `+∞`; an extended
  real with `|a| < ⊤` is neither infinity, hence the coercion of its real part.
-/
import proofs.«127954_j13030930776227_1_alg».proof.Pre_finite_inputs
import proofs.«127954_j13030930776227_1_alg».proof.Proof.Spec
import Idealize.ShloMosaic.Lib.ReduceAll
import Idealize.ShloMosaic.Lib.ValueIdx

noncomputable section

namespace Cert.Pinn.Finite

open Cert.Pre_finite_inputs Idealize.ShloMosaic Idealize.ShloMosaic.TcCoe Idealize.ShloMosaic.ValueIdx Cert.Pinn

variable [hP : Cert.Pre_finite_inputs.Facts]

/-- The bit pattern `0x7F800000` is `+∞`. -/
private theorem ofBits_inf : Ideal.ofBits .f32 0x7F800000#32 = (⊤ : EReal) := by
  simp [Ideal.ofBits, Ideal.ieee]

/-- An extended real whose absolute value `max x (-x)` is strictly below `⊤` is the coercion of its real part. -/
private theorem real_of_abs_lt_top (x : EReal) (h : Ideal.cmp .olt (max x (-x)) (⊤ : EReal) = 1#1) :
    x = ((x.toReal : ℝ) : EReal) := by
  induction x using EReal.rec with
  | bot => simp [Ideal.cmp] at h
  | coe r => rfl
  | top => simp [Ideal.cmp] at h

private instance : Subsingleton S_.Idx := ⟨fun a b => funext fun d => d.elim0⟩

/-- If the mask `|a| < +∞` of an array reduces by `and` over all axes to 1, every entry of the array is real. -/
private theorem allReal_of_mask {s : Shape} (a : FVec Ideal s .f32)
    (hb : S_.BroadcastsInDim s (![] : Fin 0 → Fin s.rank))
    {axes : List (Fin s.rank)} (hr : s.ReducesTo axes S_) (hu : 0 < S_.numel) (init : IVec S_ 1)
    (h : Host.reduce IntOp.andi
        (cmpf .olt (Host.absf a) (broadcastInDim s ![] hb (constant (F := Ideal) S_ .f32 0x7F800000#32))) init hr hu ix0 = 1#1) :
    AllReal a := by
  intro i
  have e := Host.reduce_andi_all _ init hr hu ix0 h i
  have e' : Ideal.cmp .olt (max (a i) (-(a i))) (⊤ : EReal) = 1#1 := by
    rw [← ofBits_inf]
    have hb' : broadcastInDim s ![] hb (constant (F := Ideal) S_ .f32 0x7F800000#32) i
        = Ideal.ofBits .f32 0x7F800000#32 := by
      rfl
    rw [← hb']
    exact e
  exact real_of_abs_lt_top (a i) e'

/-- Under the precondition every entry of every argument array is a real number. -/
theorem allReal_of_fn
    (a0 : FVec Ideal S65536x1 .f32)
    (a1 : FVec Ideal S65536x32 .f32)
    (a2 : FVec Ideal S1x256 .f32)
    (a3 : FVec Ideal S256 .f32)
    (a4 : FVec Ideal S256x256 .f32)
    (a5 : FVec Ideal S256 .f32)
    (a6 : FVec Ideal S256x32 .f32)
    (a7 : FVec Ideal S32 .f32)
    (a8 : FVec Ideal S1x32 .f32)
    (a9 : FVec Ideal S1x32 .f32)
    (a10 : FVec Ideal S32x32 .f32)
    (a11 : FVec Ideal S1x32 .f32)
    (h : Cert.Pre_finite_inputs.fn (F := Ideal) a0 a1 a2 a3 a4 a5 a6 a7 a8 a9 a10 a11 = fun _ => 1#1) :
    AllReal a0 ∧ AllReal a1 ∧ AllReal a2 ∧ AllReal a3 ∧ AllReal a4 ∧ AllReal a5 ∧ AllReal a6 ∧ AllReal a7 ∧ AllReal a8 ∧ AllReal a9 ∧ AllReal a10 ∧ AllReal a11 := by
  have h0 := congrFun h ValueIdx.ix0
  dsimp only [fn, fn_part1, fn_part2, fn_part3] at h0
  have split : ∀ (x y : IVec S_ 1), andi x y ix0 = 1#1 → x ix0 = 1#1 ∧ y ix0 = 1#1 :=
    fun x y e => IntOp.andi_eq_one.1 e
  obtain ⟨h0, r11⟩ := split _ _ h0
  obtain ⟨h0, r10⟩ := split _ _ h0
  obtain ⟨h0, r9⟩ := split _ _ h0
  obtain ⟨h0, r8⟩ := split _ _ h0
  obtain ⟨h0, r7⟩ := split _ _ h0
  obtain ⟨h0, r6⟩ := split _ _ h0
  obtain ⟨h0, r5⟩ := split _ _ h0
  obtain ⟨h0, r4⟩ := split _ _ h0
  obtain ⟨h0, r3⟩ := split _ _ h0
  obtain ⟨h0, r2⟩ := split _ _ h0
  obtain ⟨r0, r1⟩ := split _ _ h0
  exact ⟨allReal_of_mask a0 _ _ _ _ r0, allReal_of_mask a1 _ _ _ _ r1, allReal_of_mask a2 _ _ _ _ r2,
    allReal_of_mask a3 _ _ _ _ r3, allReal_of_mask a4 _ _ _ _ r4, allReal_of_mask a5 _ _ _ _ r5,
    allReal_of_mask a6 _ _ _ _ r6, allReal_of_mask a7 _ _ _ _ r7, allReal_of_mask a8 _ _ _ _ r8,
    allReal_of_mask a9 _ _ _ _ r9, allReal_of_mask a10 _ _ _ _ r10, allReal_of_mask a11 _ _ _ _ r11⟩

end Cert.Pinn.Finite

end
-- ==== Proof.lean ====
/-
  A physics-informed network's residual, by hand-derived derivatives and by nested forward differentiation.

  The kernel evaluates a two-layer `tanh` network of one scalar input per sample together with its first and
  second derivatives in that input, written out by the chain rule, and from them the residual of a coupled
  swing equation; the reference obtains the same derivatives by differentiating the network twice in forward
  mode. On finite inputs every intermediate value of either program is a real number, the two derivative
  formulas agree by `(1 + h) * (1 - h) = 1 - h ^ 2` and distributivity, and the kernel's named constant `1/10`
  is the reference's `(2 * 1) / 20`. Both programs' three results are therefore the same functions of the
  argument arrays: the network's output, its time derivative, and the residual, sample by sample
  (Proof/Spec.lean states them; Proof/KernelRow.lean and Proof/KernelArray.lean read them off the kernel,
  Proof/RefLayer0.lean, Proof/RefLayer1.lean and Proof/RefOut.lean off the reference, Proof/Finite.lean reads the
  precondition).
-/
import proofs.«127954_j13030930776227_1_alg».proof.Defs
import proofs.«127954_j13030930776227_1_alg».proof.Proof.Gen.Kernel
import proofs.«127954_j13030930776227_1_alg».proof.Proof.Gen.Kernel.Skeleton
import proofs.«127954_j13030930776227_1_alg».proof.Proof.Gen.Kernel.Launch
import proofs.«127954_j13030930776227_1_alg».proof.Proof.Gen.Kernel.Points
import proofs.«127954_j13030930776227_1_alg».proof.Proof.Gen.Kernel.Frame
import proofs.«127954_j13030930776227_1_alg».proof.Proof.Gen.KernelIdeal
import proofs.«127954_j13030930776227_1_alg».proof.Proof.Gen.KernelIdeal.Skeleton
import proofs.«127954_j13030930776227_1_alg».proof.Proof.Gen.KernelIdeal.Launch
import proofs.«127954_j13030930776227_1_alg».proof.Proof.Gen.KernelIdeal.Points
import proofs.«127954_j13030930776227_1_alg».proof.Proof.Gen.KernelIdeal.Frame
import proofs.«127954_j13030930776227_1_alg».proof.Proof.Gen.ReferenceIdeal
import proofs.«127954_j13030930776227_1_alg».proof.Proof.Gen.KernelIdeal.Value
import proofs.«127954_j13030930776227_1_alg».proof.Proof.Gen.ReferenceIdeal.Run
import proofs.«127954_j13030930776227_1_alg».proof.Proof.Gen.ReferenceIdeal.Read
import proofs.«127954_j13030930776227_1_alg».proof.Proof.Gen.Pre_finite_inputs
import proofs.«127954_j13030930776227_1_alg».proof.Proof.KernelArray
import proofs.«127954_j13030930776227_1_alg».proof.Proof.RefOut
import proofs.«127954_j13030930776227_1_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Pinn

/-- Arrays of real entries satisfy the reference side's hypotheses at their own real parts. -/
theorem arrReal_of_allReal
    {x0 : FVec Ideal Cert.ReferenceIdeal.S65536x1 .f32} {x1 : FVec Ideal Cert.ReferenceIdeal.S65536x32 .f32}
    {x2 : FVec Ideal Cert.ReferenceIdeal.S1x256 .f32} {x3 : FVec Ideal Cert.ReferenceIdeal.S256 .f32}
    {x4 : FVec Ideal Cert.ReferenceIdeal.S256x256 .f32} {x5 : FVec Ideal Cert.ReferenceIdeal.S256 .f32}
    {x6 : FVec Ideal Cert.ReferenceIdeal.S256x32 .f32} {x7 : FVec Ideal Cert.ReferenceIdeal.S32 .f32}
    {x8 x9 : FVec Ideal Cert.ReferenceIdeal.S1x32 .f32} {x10 : FVec Ideal Cert.ReferenceIdeal.S32x32 .f32}
    {x11 : FVec Ideal Cert.ReferenceIdeal.S1x32 .f32}
    (h0 : AllReal x0) (h1 : AllReal x1) (h2 : AllReal x2) (h3 : AllReal x3) (h4 : AllReal x4) (h5 : AllReal x5)
    (h6 : AllReal x6) (h7 : AllReal x7) (h8 : AllReal x8) (h9 : AllReal x9) (h10 : AllReal x10) (h11 : AllReal x11) :
    Cert.ReferenceIdeal.RefRow.ArrReal (wtsOf x2 x3 x4 x5 x6 x7 x8 x9 x10 x11) (timeOf x0) (powOf x1)
      x0 x1 x2 x3 x4 x5 x6 x7 x8 x9 x10 x11 :=
  ⟨fun _ => h0 _, fun _ _ => h1 _, fun _ => h2 _, fun _ => h3 _, fun _ _ => h4 _, fun _ => h5 _, fun _ _ => h6 _,
    fun _ => h7 _, fun _ => h8 _, fun _ => h9 _, fun _ _ => h10 _, fun _ => h11 _⟩

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both of the kernel's named constants are `"inv_10"`, which the table gives the value `1/10`. -/
theorem preserves : Cert.preserves_Kernel_KernelIdeal :=
  ⟨IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩

/-- On finite inputs both programs end with the network's output, its time derivative and the residual. -/
theorem algebraic : Cert.algebraic_KernelIdeal_ReferenceIdeal := by
  intro m ρ m' ρ' hpre hagree
  have hreal : ∀ c : Dev Cert.KernelIdeal.nD, Cert.KernelIdeal.Arr.ArgsReal m c := fun c => by
    obtain ⟨h0, h1, h2, h3, h4, h5, h6, h7, h8, h9, h10, h11⟩ :=
      Cert.Pinn.Finite.allReal_of_fn _ _ _ _ _ _ _ _ _ _ _ _ (hpre c)
    exact ⟨h0, h1, h2, h3, h4, h5, h6, h7, h8, h9, h10, h11⟩
  refine ⟨fun c => GOut (Cert.KernelIdeal.Arr.wts m c) (Cert.KernelIdeal.Arr.times m c),
    fun c => GOutT (Cert.KernelIdeal.Arr.wts m c) (Cert.KernelIdeal.Arr.times m c),
    fun c => GPhys (Cert.KernelIdeal.Arr.wts m c) (Cert.KernelIdeal.Arr.times m c) (Cert.KernelIdeal.Arr.pows m c),
    Cert.KernelIdeal.Arr.run m ρ hreal, ?_⟩
  refine (θ_run Cert.ReferenceIdeal.defs _ _).mono (fun r h c => ?_) (Cert.ReferenceIdeal.Value.run (F := Ideal) m' ρ')
  obtain ⟨e0, e1, e2, hargs⟩ := h c
  obtain ⟨g0, g1, g2, g3, g4, g5, g6, g7, g8, g9, g10, g11⟩ := hagree c
  have hA := arrReal_of_allReal (hreal c).a0 (hreal c).a1 (hreal c).a2 (hreal c).a3 (hreal c).a4 (hreal c).a5
    (hreal c).a6 (hreal c).a7 (hreal c).a8 (hreal c).a9 (hreal c).a10 (hreal c).a11
  refine ⟨?_, ?_, ?_, hargs⟩
  · rw [e0, Cert.ReferenceIdeal.Read.val_main_v82_eq, g0, g2, g3, g4, g5, g6, g7]
    funext i
    obtain ⟨n, j, rfl⟩ : ∃ (n : Fin 65536) (j : Fin 32), i = ix2 n j := ⟨i 0, i 1, eq_ix2 i⟩
    exact Cert.ReferenceIdeal.RefRow.ref_out hA n j
  · rw [e1, Cert.ReferenceIdeal.Read.val_main_v78_eq, g0, g2, g3, g4, g5, g6]
    funext i
    obtain ⟨n, j, rfl⟩ : ∃ (n : Fin 65536) (j : Fin 32), i = ix2 n j := ⟨i 0, i 1, eq_ix2 i⟩
    exact Cert.ReferenceIdeal.RefRow.ref_outT hA n j
  · rw [e2, Cert.ReferenceIdeal.Read.val_main_v100_eq, g0, g1, g2, g3, g4, g5, g6, g7, g8, g9, g10, g11]
    funext i
    obtain ⟨n, j, rfl⟩ : ∃ (n : Fin 65536) (j : Fin 32), i = ix2 n j := ⟨i 0, i 1, eq_ix2 i⟩
    exact Cert.ReferenceIdeal.RefRow.ref_phys hA n j

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
